-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x643 : Shape := ⟨2, ![8192, 643]⟩
abbrev S8x512 : Shape := ⟨2, ![8, 512]⟩
abbrev S512 : Shape := ⟨1, ![512]⟩
abbrev S12x512 : Shape := ⟨2, ![12, 512]⟩
abbrev S16x512 : Shape := ⟨2, ![16, 512]⟩
abbrev S32x512 : Shape := ⟨2, ![32, 512]⟩
abbrev S_ : Shape := ⟨0, ![]⟩

class Facts : Prop where
  bcast_S_S8192x643 : S_.BroadcastsInDim S8192x643 (![] : Fin 0 → Fin S8192x643.rank)
  reducesTo_S8192x643_S_d0_1 : S8192x643.ReducesTo [0, 1] S_
  h_S_ : 0 < S_.numel
  bcast_S_S8x512 : S_.BroadcastsInDim S8x512 (![] : Fin 0 → Fin S8x512.rank)
  reducesTo_S8x512_S_d0_1 : S8x512.ReducesTo [0, 1] S_
  bcast_S_S512 : S_.BroadcastsInDim S512 (![] : Fin 0 → Fin S512.rank)
  reducesTo_S512_S_d0 : S512.ReducesTo [0] S_
  bcast_S_S12x512 : S_.BroadcastsInDim S12x512 (![] : Fin 0 → Fin S12x512.rank)
  reducesTo_S12x512_S_d0_1 : S12x512.ReducesTo [0, 1] S_
  bcast_S_S16x512 : S_.BroadcastsInDim S16x512 (![] : Fin 0 → Fin S16x512.rank)
  reducesTo_S16x512_S_d0_1 : S16x512.ReducesTo [0, 1] S_
  bcast_S_S32x512 : S_.BroadcastsInDim S32x512 (![] : Fin 0 → Fin S32x512.rank)
  reducesTo_S32x512_S_d0_1 : S32x512.ReducesTo [0, 1] S_

variable [Facts]

def fn_part2 {F : FTy → Type} [FloatOps F] (main_arg7 : FVec F S32x512 .f32) (main_arg8 : FVec F S512 .f32) (main_v33 : IVec S_ 1) : IVec S_ 1 :=
  let main_v34 : FVec F S32x512 .f32 := Host.absf main_arg7
  let main_cst_12 : FVec F S_ .f32 := constant S_ .f32 0x7F800000#32
  let main_v35 : FVec F S32x512 .f32 := broadcastInDim S32x512 ![] bcast_S_S32x512 main_cst_12
  let main_v36 : IVec S32x512 1 := cmpf .olt main_v34 main_v35
  let main_c_13 : IVec S_ 1 := constantI S_ 1 1#1
  let main_v37 : IVec S_ 1 := (fun x v => Host.reduce IntOp.andi x v reducesTo_S32x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S512 .f32) (main_arg5 : FVec F S16x512 .f32) (main_arg6 : FVec F S512 .f32) (main_arg7 : FVec F S32x512 .f32) (main_arg8 : FVec F S512 .f32) (main_v13 : IVec S_ 1) (main_v16 : IVec S12x512 1) : IVec S_ 1 :=
  let main_c_5 : IVec S_ 1 := constantI S_ 1 1#1
  let main_v17 : IVec S_ 1 := (fun x v => Host.reduce IntOp.andi x v reducesTo_S12x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S16x512 .f32 := Host.absf main_arg5
  let main_cst_8 : FVec F S_ .f32 := constant S_ .f32 0x7F800000#32
  let main_v25 : FVec F S16x512 .f32 := broadcastInDim S16x512 ![] bcast_S_S16x512 main_cst_8
  let main_v26 : IVec S16x512 1 := cmpf .olt main_v24 main_v25
  let main_c_9 : IVec S_ 1 := constantI S_ 1 1#1
  let main_v27 : IVec S_ 1 := (fun x v => Host.reduce IntOp.andi x v reducesTo_S16x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S8192x643 .f32) (main_arg1 : FVec F S8x512 .f32) (main_arg2 : FVec F S512 .f32) (main_arg3 : FVec F S12x512 .f32) (main_arg4 : FVec F S512 .f32) (main_arg5 : FVec F S16x512 .f32) (main_arg6 : FVec F S512 .f32) (main_arg7 : FVec F S32x512 .f32) (main_arg8 : FVec F S512 .f32) : IVec S_ 1 :=
  let main_v0 : FVec F S8192x643 .f32 := Host.absf main_arg0
  let main_cst : FVec F S_ .f32 := constant S_ .f32 0x7F800000#32
  let main_v1 : FVec F S8192x643 .f32 := broadcastInDim S8192x643 ![] bcast_S_S8192x643 main_cst
  let main_v2 : IVec S8192x643 1 := cmpf .olt main_v0 main_v1
  let main_c : IVec S_ 1 := constantI S_ 1 1#1
  let main_v3 : IVec S_ 1 := (fun x v => Host.reduce IntOp.andi x v reducesTo_S8192x643_S_d0_1 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S12x512 .f32 := Host.absf main_arg3
  let main_cst_4 : FVec F S_ .f32 := constant S_ .f32 0x7F800000#32
  let main_v15 : FVec F S12x512 .f32 := broadcastInDim S12x512 ![] bcast_S_S12x512 main_cst_4
  let main_v16 : IVec S12x512 1 := cmpf .olt main_v14 main_v15
  fn_part1 (F := F) main_arg4 main_arg5 main_arg6 main_arg7 main_arg8 main_v13 main_v16
-- ==== Kernel.lean ====
abbrev S8192x643 : Shape := ⟨2, ![8192, 643]⟩
abbrev S8x512 : Shape := ⟨2, ![8, 512]⟩
abbrev S512 : Shape := ⟨1, ![512]⟩
abbrev S12x512 : Shape := ⟨2, ![12, 512]⟩
abbrev S16x512 : Shape := ⟨2, ![16, 512]⟩
abbrev S32x512 : Shape := ⟨2, ![32, 512]⟩
abbrev S8192x180 : Shape := ⟨2, ![8192, 180]⟩
abbrev S8192x20x9 : Shape := ⟨3, ![8192, 20, 9]⟩
abbrev S8192x20x8 : Shape := ⟨3, ![8192, 20, 8]⟩
abbrev S8192x260 : Shape := ⟨2, ![8192, 260]⟩
abbrev S8192x20x13 : Shape := ⟨3, ![8192, 20, 13]⟩
abbrev S8192x20x12 : Shape := ⟨3, ![8192, 20, 12]⟩
abbrev S8192x170 : Shape := ⟨2, ![8192, 170]⟩
abbrev S8192x10x17 : Shape := ⟨3, ![8192, 10, 17]⟩
abbrev S8192x10x16 : Shape := ⟨3, ![8192, 10, 16]⟩
abbrev S8192x32 : Shape := ⟨2, ![8192, 32]⟩
abbrev S1x512 : Shape := ⟨2, ![1, 512]⟩
abbrev S8192x40x512 : Shape := ⟨3, ![8192, 40, 512]⟩
abbrev S8192x10x512 : Shape := ⟨3, ![8192, 10, 512]⟩
abbrev S8192x1x512 : Shape := ⟨3, ![8192, 1, 512]⟩
abbrev S128x20x8 : Shape := ⟨3, ![128, 20, 8]⟩
abbrev S128x20x12 : Shape := ⟨3, ![128, 20, 12]⟩
abbrev S128x10x16 : Shape := ⟨3, ![128, 10, 16]⟩
abbrev S128x32 : Shape := ⟨2, ![128, 32]⟩
abbrev S128x40x512 : Shape := ⟨3, ![128, 40, 512]⟩
abbrev S128x10x512 : Shape := ⟨3, ![128, 10, 512]⟩
abbrev S128x1x512 : Shape := ⟨3, ![128, 1, 512]⟩
abbrev S2560x8 : Shape := ⟨2, ![2560, 8]⟩
abbrev S2560x512 : Shape := ⟨2, ![2560, 512]⟩
abbrev S128x20x512 : Shape := ⟨3, ![128, 20, 512]⟩
abbrev S2560x12 : Shape := ⟨2, ![2560, 12]⟩
abbrev S1280x16 : Shape := ⟨2, ![1280, 16]⟩
abbrev S1280x512 : Shape := ⟨2, ![1280, 512]⟩
abbrev S128x512 : Shape := ⟨2, ![128, 512]⟩

abbrev nBuf : Space → Nat
  | .hbm => 26
  | .vmem => 22
  | .smem => 0
  | _ => 0

abbrev bufTy : (tb : Table) → Fin (tcTables nBuf tb) → BufTy
  | .hbm, ⟨0, _⟩ => ⟨S8192x643, .f32⟩
  | .hbm, ⟨1, _⟩ => ⟨S8x512, .f32⟩
  | .hbm, ⟨2, _⟩ => ⟨S512, .f32⟩
  | .hbm, ⟨3, _⟩ => ⟨S12x512, .f32⟩
  | .hbm, ⟨4, _⟩ => ⟨S512, .f32⟩
  | .hbm, ⟨5, _⟩ => ⟨S16x512, .f32⟩
  | .hbm, ⟨6, _⟩ => ⟨S512, .f32⟩
  | .hbm, ⟨7, _⟩ => ⟨S32x512, .f32⟩
  | .hbm, ⟨8, _⟩ => ⟨S512, .f32⟩
  | .hbm, ⟨9, _⟩ => ⟨S8192x180, .f32⟩
  | .hbm, ⟨10, _⟩ => ⟨S8192x20x9, .f32⟩
  | .hbm, ⟨11, _⟩ => ⟨S8192x20x8, .f32⟩
  | .hbm, ⟨12, _⟩ => ⟨S8192x260, .f32⟩
  | .hbm, ⟨13, _⟩ => ⟨S8192x20x13, .f32⟩
  | .hbm, ⟨14, _⟩ => ⟨S8192x20x12, .f32⟩
  | .hbm, ⟨15, _⟩ => ⟨S8192x170, .f32⟩
  | .hbm, ⟨16, _⟩ => ⟨S8192x10x17, .f32⟩
  | .hbm, ⟨17, _⟩ => ⟨S8192x10x16, .f32⟩
  | .hbm, ⟨18, _⟩ => ⟨S8192x32, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S8192x40x512, .f32⟩
  | .hbm, ⟨24, _⟩ => ⟨S8192x10x512, .f32⟩
  | .hbm, ⟨25, _⟩ => ⟨S8192x1x512, .f32⟩
  | .local _ .vmem, ⟨0, _⟩ => ⟨S128x20x8, .f32⟩
  | .local _ .vmem, ⟨1, _⟩ => ⟨S128x20x8, .f32⟩
  | .local _ .vmem, ⟨2, _⟩ => ⟨S128x20x12, .f32⟩
  | .local _ .vmem, ⟨3, _⟩ => ⟨S128x20x12, .f32⟩
  | .local _ .vmem, ⟨4, _⟩ => ⟨S128x10x16, .f32⟩
  | .local _ .vmem, ⟨5, _⟩ => ⟨S128x10x16, .f32⟩
  | .local _ .vmem, ⟨6, _⟩ => ⟨S128x32, .f32⟩
  | .local _ .vmem, ⟨7, _⟩ => ⟨S128x32, .f32⟩
  | .local _ .vmem, ⟨8, _⟩ => ⟨S8x512, .f32⟩
  | .local _ .vmem, ⟨9, _⟩ => ⟨S1x512, .f32⟩
  | .local _ .vmem, ⟨10, _⟩ => ⟨S12x512, .f32⟩
  | .local _ .vmem, ⟨11, _⟩ => ⟨S1x512, .f32⟩
  | .local _ .vmem, ⟨12, _⟩ => ⟨S16x512, .f32⟩
  | .local _ .vmem, ⟨13, _⟩ => ⟨S1x512, .f32⟩
  | .local _ .vmem, ⟨14, _⟩ => ⟨S32x512, .f32⟩
  | .local _ .vmem, ⟨15, _⟩ => ⟨S1x512, .f32⟩
  | .local _ .vmem, ⟨16, _⟩ => ⟨S128x40x512, .f32⟩
  | .local _ .vmem, ⟨17, _⟩ => ⟨S128x40x512, .f32⟩
  | .local _ .vmem, ⟨18, _⟩ => ⟨S128x10x512, .f32⟩
  | .local _ .vmem, ⟨19, _⟩ => ⟨S128x10x512, .f32⟩
  | .local _ .vmem, ⟨20, _⟩ => ⟨S128x1x512, .f32⟩
  | .local _ .vmem, ⟨21, _⟩ => ⟨S128x1x512, .f32⟩
  | _, _ => ⟨S8192x643, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x20x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x20x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x10x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x40x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x10x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S8192x643_S8192x180_0_0 : S8192x643.Slices ![0, 0] S8192x180
  shapeCasts_S8192x180_S8192x20x9 : S8192x180.ShapeCasts S8192x20x9
  slices_S8192x20x9_S8192x20x8_0_0_1 : S8192x20x9.Slices ![0, 0, 1] S8192x20x8
  slices_S8192x643_S8192x260_0_180 : S8192x643.Slices ![0, 180] S8192x260
  shapeCasts_S8192x260_S8192x20x13 : S8192x260.ShapeCasts S8192x20x13
  slices_S8192x20x13_S8192x20x12_0_0_1 : S8192x20x13.Slices ![0, 0, 1] S8192x20x12
  slices_S8192x643_S8192x170_0_440 : S8192x643.Slices ![0, 440] S8192x170
  shapeCasts_S8192x170_S8192x10x17 : S8192x170.ShapeCasts S8192x10x17
  slices_S8192x10x17_S8192x10x16_0_0_1 : S8192x10x17.Slices ![0, 0, 1] S8192x10x16
  slices_S8192x643_S8192x32_0_611 : S8192x643.Slices ![0, 611] S8192x32
  shapeCasts_S512_S1x512 : S512.ShapeCasts S1x512
  inb_S128x20x8_S128x20x8_0_0_0 : ∀ a, (![0, 0, 0] : Fin 3 → Nat) a + S128x20x8.size a ≤ S128x20x8.size a
  h_S128x20x8 : 0 < S128x20x8.numel
  shapeCasts_S128x20x8_S128x20x8 : S128x20x8.ShapeCasts S128x20x8
  shapeCasts_S128x20x8_S2560x8 : S128x20x8.ShapeCasts S2560x8
  inb_S8x512_S8x512_0_0 : ∀ a, (![0, 0] : Fin 2 → Nat) a + S8x512.size a ≤ S8x512.size a
  h_S8x512 : 0 < S8x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2560x512 : S1x512.Broadcasts S2560x512
  shapeCasts_S2560x512_S128x20x512 : S2560x512.ShapeCasts S128x20x512
  inb_S128x20x12_S128x20x12_0_0_0 : ∀ a, (![0, 0, 0] : Fin 3 → Nat) a + S128x20x12.size a ≤ S128x20x12.size a
  h_S128x20x12 : 0 < S128x20x12.numel
  shapeCasts_S128x20x12_S128x20x12 : S128x20x12.ShapeCasts S128x20x12
  shapeCasts_S128x20x12_S2560x12 : S128x20x12.ShapeCasts S2560x12
  inb_S12x512_S12x512_0_0 : ∀ a, (![0, 0] : Fin 2 → Nat) a + S12x512.size a ≤ S12x512.size a
  h_S12x512 : 0 < S12x512.numel
  concatenates_S128x20x512_S128x20x512_S128x40x512_d1 : Shape.Concatenates [S128x20x512, S128x20x512] S128x40x512 1
  inb_S128x40x512_S128x40x512_0_0_0 : ∀ a, (![0, 0, 0] : Fin 3 → Nat) a + S128x40x512.size a ≤ S128x40x512.size a
  h_S128x40x512 : 0 < S128x40x512.numel
  inb_S128x10x16_S128x10x16_0_0_0 : ∀ a, (![0, 0, 0] : Fin 3 → Nat) a + S128x10x16.size a ≤ S128x10x16.size a
  h_S128x10x16 : 0 < S128x10x16.numel
  shapeCasts_S128x10x16_S128x10x16 : S128x10x16.ShapeCasts S128x10x16
  shapeCasts_S128x10x16_S1280x16 : S128x10x16.ShapeCasts S1280x16
  inb_S16x512_S16x512_0_0 : ∀ a, (![0, 0] : Fin 2 → Nat) a + S16x512.size a ≤ S16x512.size a
  h_S16x512 : 0 < S16x512.numel
  broadcasts_S1x512_S1280x512 : S1x512.Broadcasts S1280x512
  shapeCasts_S1280x512_S128x10x512 : S1280x512.ShapeCasts S128x10x512
  inb_S128x10x512_S128x10x512_0_0_0 : ∀ a, (![0, 0, 0] : Fin 3 → Nat) a + S128x10x512.size a ≤ S128x10x512.size a
  h_S128x10x512 : 0 < S128x10x512.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32x512_S32x512_0_0 : ∀ a, (![0, 0] : Fin 2 → Nat) a + S32x512.size a ≤ S32x512.size a
  h_S32x512 : 0 < S32x512.numel
  broadcasts_S1x512_S128x512 : S1x512.Broadcasts S128x512
  shapeCasts_S128x512_S128x1x512 : S128x512.ShapeCasts S128x1x512
  inb_S128x1x512_S128x1x512_0_0_0 : ∀ a, (![0, 0, 0] : Fin 3 → Nat) a + S128x1x512.size a ≤ S128x1x512.size a
  h_S128x1x512 : 0 < S128x1x512.numel
  dot_S2560x8_S8x512_S2560x512_1_0_0_1_n_n_wf : DotDims.WF S2560x8 S8x512 S2560x512 [1] [0] [0] [1] [] []
  dot_S2560x12_S12x512_S2560x512_1_0_0_1_n_n_wf : DotDims.WF S2560x12 S12x512 S2560x512 [1] [0] [0] [1] [] []
  dot_S1280x16_S16x512_S1280x512_1_0_0_1_n_n_wf : DotDims.WF S1280x16 S16x512 S1280x512 [1] [0] [0] [1] [] []
  dot_S128x32_S32x512_S128x512_1_0_0_1_n_n_wf : DotDims.WF S128x32 S32x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20x8.size a ≤ S8192x20x8.size a
  hwx0_0 : ∀ i : grid0.Coords, EltTy.bits .f32 = 32 ∨ (Rect.block (s := S8192x20x8) S128x20x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x20x12.size a ≤ S8192x20x12.size a
  hwx0_1 : ∀ i : grid0.Coords, EltTy.bits .f32 = 32 ∨ (Rect.block (s := S8192x20x12) S128x20x12.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x10x16.size a ≤ S8192x10x16.size a
  hwx0_2 : ∀ i : grid0.Coords, EltTy.bits .f32 = 32 ∨ (Rect.block (s := S8192x10x16) S128x10x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S8192x32.size a
  hwx0_3 : ∀ i : grid0.Coords, EltTy.bits .f32 = 32 ∨ (Rect.block (s := S8192x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x512.size a
  hwx0_4 : ∀ i : grid0.Coords, EltTy.bits .f32 = 32 ∨ (Rect.block (s := S8x512) S8x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12x512.size a ≤ S12x512.size a
  hwx0_6 : ∀ i : grid0.Coords, EltTy.bits .f32 = 32 ∨ (Rect.block (s := S12x512) S12x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S16x512.size a
  hwx0_8 : ∀ i : grid0.Coords, EltTy.bits .f32 = 32 ∨ (Rect.block (s := S16x512) S16x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x512.size a ≤ S32x512.size a
  hwx0_10 : ∀ i : grid0.Coords, EltTy.bits .f32 = 32 ∨ (Rect.block (s := S32x512) S32x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x40x512.size a ≤ S8192x40x512.size a
  hwx0_12 : ∀ i : grid0.Coords, EltTy.bits .f32 = 32 ∨ (Rect.block (s := S8192x40x512) S128x40x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x10x512.size a ≤ S8192x10x512.size a
  hwx0_13 : ∀ i : grid0.Coords, EltTy.bits .f32 = 32 ∨ (Rect.block (s := S8192x10x512) S128x10x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1x512.size a ≤ S8192x1x512.size a
  hwx0_14 : ∀ i : grid0.Coords, EltTy.bits .f32 = 32 ∨ (Rect.block (s := S8192x1x512) S128x1x512.size (cc0_transform_14 i) (hinb0_14 i)).WholeWords (EltTy.packing .f32)

variable [Facts₀]

def dot_S2560x8_S8x512_S2560x512_1_0_0_1_n_n : DotDims S2560x8 S8x512 S2560x512 where
  lhsContracting := [1]
  rhsContracting := [0]
  lhsNonContracting := [0]
  rhsNonContracting := [1]
  lhsBatch := []
  rhsBatch := []
  wf := dot_S2560x8_S8x512_S2560x512_1_0_0_1_n_n_wf
def dot_S2560x12_S12x512_S2560x512_1_0_0_1_n_n : DotDims S2560x12 S12x512 S2560x512 where
  lhsContracting := [1]
  rhsContracting := [0]
  lhsNonContracting := [0]
  rhsNonContracting := [1]
  lhsBatch := []
  rhsBatch := []
  wf := dot_S2560x12_S12x512_S2560x512_1_0_0_1_n_n_wf
def dot_S1280x16_S16x512_S1280x512_1_0_0_1_n_n : DotDims S1280x16 S16x512 S1280x512 where
  lhsContracting := [1]
  rhsContracting := [0]
  lhsNonContracting := [0]
  rhsNonContracting := [1]
  lhsBatch := []
  rhsBatch := []
  wf := dot_S1280x16_S16x512_S1280x512_1_0_0_1_n_n_wf
def dot_S128x32_S32x512_S128x512_1_0_0_1_n_n : DotDims S128x32 S32x512 S128x512 where
  lhsContracting := [1]
  rhsContracting := [0]
  lhsNonContracting := [0]
  rhsNonContracting := [1]
  lhsBatch := []
  rhsBatch := []
  wf := dot_S128x32_S32x512_S128x512_1_0_0_1_n_n_wf

abbrev win0_0 : Pipeline.Window sig grid0 :=
  Pipeline.Window.ofSpec (Memref.whole main_v2) S128x20x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x20x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x10x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S8x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S12x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S16x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S32x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14_0) S128x40x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v14_1) S128x10x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v14_2) S128x1x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x643 : Shape := ⟨2, ![8192, 643]⟩
abbrev S8x512 : Shape := ⟨2, ![8, 512]⟩
abbrev S512 : Shape := ⟨1, ![512]⟩
abbrev S12x512 : Shape := ⟨2, ![12, 512]⟩
abbrev S16x512 : Shape := ⟨2, ![16, 512]⟩
abbrev S32x512 : Shape := ⟨2, ![32, 512]⟩
abbrev S20x8 : Shape := ⟨2, ![20, 8]⟩
abbrev S20x12 : Shape := ⟨2, ![20, 12]⟩
abbrev S10x16 : Shape := ⟨2, ![10, 16]⟩
abbrev S32 : Shape := ⟨1, ![32]⟩
abbrev S_ : Shape := ⟨0, ![]⟩
abbrev S20x8x1 : Shape := ⟨3, ![20, 8, 1]⟩
abbrev S8192x20x8 : Shape := ⟨3, ![8192, 20, 8]⟩
abbrev S20x12x1 : Shape := ⟨3, ![20, 12, 1]⟩
abbrev S8192x20x12 : Shape := ⟨3, ![8192, 20, 12]⟩
abbrev S10x16x1 : Shape := ⟨3, ![10, 16, 1]⟩
abbrev S8192x10x16 : Shape := ⟨3, ![8192, 10, 16]⟩
abbrev S32x1 : Shape := ⟨2, ![32, 1]⟩
abbrev S8192x32 : Shape := ⟨2, ![8192, 32]⟩
abbrev S8192x20x512 : Shape := ⟨3, ![8192, 20, 512]⟩
abbrev S1x1x512 : Shape := ⟨3, ![1, 1, 512]⟩
abbrev S8192x10x512 : Shape := ⟨3, ![8192, 10, 512]⟩
abbrev S8192x512 : Shape := ⟨2, ![8192, 512]⟩
abbrev S1x512 : Shape := ⟨2, ![1, 512]⟩
abbrev S8192x1x512 : Shape := ⟨3, ![8192, 1, 512]⟩
abbrev S8192x40x512 : Shape := ⟨3, ![8192, 40, 512]⟩

abbrev nBuf : Space → Nat
  | .hbm => 67
  | .vmem => 0
  | .smem => 0
  | _ => 0

abbrev bufTy : (tb : Table) → Fin (tcTables nBuf tb) → BufTy
  | .hbm, ⟨0, _⟩ => ⟨S8192x643, .f32⟩
  | .hbm, ⟨1, _⟩ => ⟨S8x512, .f32⟩
  | .hbm, ⟨2, _⟩ => ⟨S512, .f32⟩
  | .hbm, ⟨3, _⟩ => ⟨S12x512, .f32⟩
  | .hbm, ⟨4, _⟩ => ⟨S512, .f32⟩
  | .hbm, ⟨5, _⟩ => ⟨S16x512, .f32⟩
  | .hbm, ⟨6, _⟩ => ⟨S512, .f32⟩
  | .hbm, ⟨7, _⟩ => ⟨S32x512, .f32⟩
  | .hbm, ⟨8, _⟩ => ⟨S512, .f32⟩
  | .hbm, ⟨9, _⟩ => ⟨S20x8, .i32⟩
  | .hbm, ⟨10, _⟩ => ⟨S20x12, .i32⟩
  | .hbm, ⟨11, _⟩ => ⟨S10x16, .i32⟩
  | .hbm, ⟨12, _⟩ => ⟨S32, .i32⟩
  | .hbm, ⟨13, _⟩ => ⟨S_, .i32⟩
  | .hbm, ⟨14, _⟩ => ⟨S20x8, .i32⟩
  | .hbm, ⟨15, _⟩ => ⟨S20x8, .i1⟩
  | .hbm, ⟨16, _⟩ => ⟨S_, .i32⟩
  | .hbm, ⟨17, _⟩ => ⟨S20x8, .i32⟩
  | .hbm, ⟨18, _⟩ => ⟨S20x8, .i32⟩
  | .hbm, ⟨19, _⟩ => ⟨S20x8, .i32⟩
  | .hbm, ⟨20, _⟩ => ⟨S20x8x1, .i32⟩
  | .hbm, ⟨21, _⟩ => ⟨S8192x20x8, .f32⟩
  | .hbm, ⟨22, _⟩ => ⟨S_, .i32⟩
  | .hbm, ⟨23, _⟩ => ⟨S20x12, .i32⟩
  | .hbm, ⟨24, _⟩ => ⟨S20x12, .i1⟩
  | .hbm, ⟨25, _⟩ => ⟨S_, .i32⟩
  | .hbm, ⟨26, _⟩ => ⟨S20x12, .i32⟩
  | .hbm, ⟨27, _⟩ => ⟨S20x12, .i32⟩
  | .hbm, ⟨28, _⟩ => ⟨S20x12, .i32⟩
  | .hbm, ⟨29, _⟩ => ⟨S20x12x1, .i32⟩
  | .hbm, ⟨30, _⟩ => ⟨S8192x20x12, .f32⟩
  | .hbm, ⟨31, _⟩ => ⟨S_, .i32⟩
  | .hbm, ⟨32, _⟩ => ⟨S10x16, .i32⟩
  | .hbm, ⟨33, _⟩ => ⟨S10x16, .i1⟩
  | .hbm, ⟨34, _⟩ => ⟨S_, .i32⟩
  | .hbm, ⟨35, _⟩ => ⟨S10x16, .i32⟩
  | .hbm, ⟨36, _⟩ => ⟨S10x16, .i32⟩
  | .hbm, ⟨37, _⟩ => ⟨S10x16, .i32⟩
  | .hbm, ⟨38, _⟩ => ⟨S10x16x1, .i32⟩
  | .hbm, ⟨39, _⟩ => ⟨S8192x10x16, .f32⟩
  | .hbm, ⟨40, _⟩ => ⟨S_, .i32⟩
  | .hbm, ⟨41, _⟩ => ⟨S32, .i32⟩
  | .hbm, ⟨42, _⟩ => ⟨S32, .i1⟩
  | .hbm, ⟨43, _⟩ => ⟨S_, .i32⟩
  | .hbm, ⟨44, _⟩ => ⟨S32, .i32⟩
  | .hbm, ⟨45, _⟩ => ⟨S32, .i32⟩
  | .hbm, ⟨46, _⟩ => ⟨S32, .i32⟩
  | .hbm, ⟨47, _⟩ => ⟨S32x1, .i32⟩
  | .hbm, ⟨48, _⟩ => ⟨S8192x32, .f32⟩
  | .hbm, ⟨49, _⟩ => ⟨S8192x20x512, .f32⟩
  | .hbm, ⟨50, _⟩ => ⟨S1x1x512, .f32⟩
  | .hbm, ⟨51, _⟩ => ⟨S8192x20x512, .f32⟩
  | .hbm, ⟨52, _⟩ => ⟨S8192x20x512, .f32⟩
  | .hbm, ⟨53, _⟩ => ⟨S8192x20x512, .f32⟩
  | .hbm, ⟨54, _⟩ => ⟨S1x1x512, .f32⟩
  | .hbm, ⟨55, _⟩ => ⟨S8192x20x512, .f32⟩
  | .hbm, ⟨56, _⟩ => ⟨S8192x20x512, .f32⟩
  | .hbm, ⟨57, _⟩ => ⟨S8192x10x512, .f32⟩
  | .hbm, ⟨58, _⟩ => ⟨S1x1x512, .f32⟩
  | .hbm, ⟨59, _⟩ => ⟨S8192x10x512, .f32⟩
  | .hbm, ⟨60, _⟩ => ⟨S8192x10x512, .f32⟩
  | .hbm, ⟨61, _⟩ => ⟨S8192x512, .f32⟩
  | .hbm, ⟨62, _⟩ => ⟨S1x512, .f32⟩
  | .hbm, ⟨63, _⟩ => ⟨S8192x512, .f32⟩
  | .hbm, ⟨64, _⟩ => ⟨S8192x512, .f32⟩
  | .hbm, ⟨65, _⟩ => ⟨S8192x1x512, .f32⟩
  | .hbm, ⟨66, _⟩ => ⟨S8192x40x512, .f32⟩
  | _, _ => ⟨S8192x643, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_v0 : Ref sig .tc := ⟨.hbm, 14, rfl⟩
abbrev main_v1 : Ref sig .tc := ⟨.hbm, 15, rfl⟩
abbrev main_c_4 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_5 : Ref sig .tc := ⟨.hbm, 22, rfl⟩
abbrev main_v7 : Ref sig .tc := ⟨.hbm, 23, rfl⟩
abbrev main_v8 : Ref sig .tc := ⟨.hbm, 24, rfl⟩
abbrev main_c_6 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_7 : Ref sig .tc := ⟨.hbm, 31, rfl⟩
abbrev main_v14 : Ref sig .tc := ⟨.hbm, 32, rfl⟩
abbrev main_v15 : Ref sig .tc := ⟨.hbm, 33, rfl⟩
abbrev main_c_8 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_9 : Ref sig .tc := ⟨.hbm, 40, rfl⟩
abbrev main_v21 : Ref sig .tc := ⟨.hbm, 41, rfl⟩
abbrev main_v22 : Ref sig .tc := ⟨.hbm, 42, rfl⟩
abbrev main_c_10 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S_S20x8 : S_.BroadcastsInDim S20x8 (![] : Fin 0 → Fin S20x8.rank)
  bcast_S20x8_S20x8x1_0_1 : S20x8.BroadcastsInDim S20x8x1 (![0, 1] : Fin 2 → Fin S20x8x1.rank)
  bcast_S_S20x12 : S_.BroadcastsInDim S20x12 (![] : Fin 0 → Fin S20x12.rank)
  bcast_S20x12_S20x12x1_0_1 : S20x12.BroadcastsInDim S20x12x1 (![0, 1] : Fin 2 → Fin S20x12x1.rank)
  bcast_S_S10x16 : S_.BroadcastsInDim S10x16 (![] : Fin 0 → Fin S10x16.rank)
  bcast_S10x16_S10x16x1_0_1 : S10x16.BroadcastsInDim S10x16x1 (![0, 1] : Fin 2 → Fin S10x16x1.rank)
  bcast_S_S32 : S_.BroadcastsInDim S32 (![] : Fin 0 → Fin S32.rank)
  bcast_S32_S32x1_0 : S32.BroadcastsInDim S32x1 (![0] : Fin 1 → Fin S32x1.rank)
  bcast_S512_S1x1x512_2 : S512.BroadcastsInDim S1x1x512 (![2] : Fin 1 → Fin S1x1x512.rank)
  bcast_S1x1x512_S8192x20x512_0_1_2 : S1x1x512.BroadcastsInDim S8192x20x512 (![0, 1, 2] : Fin 3 → Fin S8192x20x512.rank)
  bcast_S1x1x512_S8192x10x512_0_1_2 : S1x1x512.BroadcastsInDim S8192x10x512 (![0, 1, 2] : Fin 3 → Fin S8192x10x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S8192x512_S8192x1x512_0_2 : S8192x512.BroadcastsInDim S8192x1x512 (![0, 2] : Fin 2 → Fin S8192x1x512.rank)
  concatenates_S8192x20x512_S8192x20x512_S8192x40x512_d1 : Shape.Concatenates [S8192x20x512, S8192x20x512] S8192x40x512 1
  gather_S8192x643_S20x8x1_S8192x20x8_0_1_n_n_1_2_81921_wf : GatherDims.WF S8192x643 S20x8x1 S8192x20x8 [0] [1] [] [1] [] 2 ![8192, 1]
  gather_S8192x643_S20x12x1_S8192x20x12_0_1_n_n_1_2_81921_wf : GatherDims.WF S8192x643 S20x12x1 S8192x20x12 [0] [1] [] [1] [] 2 ![8192, 1]
  gather_S8192x643_S10x16x1_S8192x10x16_0_1_n_n_1_2_81921_wf : GatherDims.WF S8192x643 S10x16x1 S8192x10x16 [0] [1] [] [1] [] 2 ![8192, 1]
  gather_S8192x643_S32x1_S8192x32_0_1_n_n_1_1_81921_wf : GatherDims.WF S8192x643 S32x1 S8192x32 [0] [1] [] [1] [] 1 ![8192, 1]
  dot_S8192x20x8_S8x512_S8192x20x512_2_0_01_1_n_n_wf : DotDims.WF S8192x20x8 S8x512 S8192x20x512 [2] [0] [0, 1] [1] [] []
  dot_S8192x20x12_S12x512_S8192x20x512_2_0_01_1_n_n_wf : DotDims.WF S8192x20x12 S12x512 S8192x20x512 [2] [0] [0, 1] [1] [] []
  dot_S8192x10x16_S16x512_S8192x10x512_2_0_01_1_n_n_wf : DotDims.WF S8192x10x16 S16x512 S8192x10x512 [2] [0] [0, 1] [1] [] []
  dot_S8192x32_S32x512_S8192x512_1_0_0_1_n_n_wf : DotDims.WF S8192x32 S32x512 S8192x512 [1] [0] [0] [1] [] []

variable [Facts₀]

def gather_S8192x643_S20x8x1_S8192x20x8_0_1_n_n_1_2_81921 : GatherDims S8192x643 S20x8x1 S8192x20x8 where
  offsetDims := [0]
  collapsedSliceDims := [1]
  operandBatchingDims := []
  startIndicesBatchingDims := []
  startIndexMap := [1]
  indexVectorDim := 2
  sliceSizes := ![8192, 1]
  wf := gather_S8192x643_S20x8x1_S8192x20x8_0_1_n_n_1_2_81921_wf
def gather_S8192x643_S20x12x1_S8192x20x12_0_1_n_n_1_2_81921 : GatherDims S8192x643 S20x12x1 S8192x20x12 where
  offsetDims := [0]
  collapsedSliceDims := [1]
  operandBatchingDims := []
  startIndicesBatchingDims := []
  startIndexMap := [1]
  indexVectorDim := 2
  sliceSizes := ![8192, 1]
  wf := gather_S8192x643_S20x12x1_S8192x20x12_0_1_n_n_1_2_81921_wf
def gather_S8192x643_S10x16x1_S8192x10x16_0_1_n_n_1_2_81921 : GatherDims S8192x643 S10x16x1 S8192x10x16 where
  offsetDims := [0]
  collapsedSliceDims := [1]
  operandBatchingDims := []
  startIndicesBatchingDims := []
  startIndexMap := [1]
  indexVectorDim := 2
  sliceSizes := ![8192, 1]
  wf := gather_S8192x643_S10x16x1_S8192x10x16_0_1_n_n_1_2_81921_wf
def gather_S8192x643_S32x1_S8192x32_0_1_n_n_1_1_81921 : GatherDims S8192x643 S32x1 S8192x32 where
  offsetDims := [0]
  collapsedSliceDims := [1]
  operandBatchingDims := []
  startIndicesBatchingDims := []
  startIndexMap := [1]
  indexVectorDim := 1
  sliceSizes := ![8192, 1]
  wf := gather_S8192x643_S32x1_S8192x32_0_1_n_n_1_1_81921_wf
def dot_S8192x20x8_S8x512_S8192x20x512_2_0_01_1_n_n : DotDims S8192x20x8 S8x512 S8192x20x512 where
  lhsContracting := [2]
  rhsContracting := [0]
  lhsNonContracting := [0, 1]
  rhsNonContracting := [1]
  lhsBatch := []
  rhsBatch := []
  wf := dot_S8192x20x8_S8x512_S8192x20x512_2_0_01_1_n_n_wf
def dot_S8192x20x12_S12x512_S8192x20x512_2_0_01_1_n_n : DotDims S8192x20x12 S12x512 S8192x20x512 where
  lhsContracting := [2]
  rhsContracting := [0]
  lhsNonContracting := [0, 1]
  rhsNonContracting := [1]
  lhsBatch := []
  rhsBatch := []
  wf := dot_S8192x20x12_S12x512_S8192x20x512_2_0_01_1_n_n_wf
def dot_S8192x10x16_S16x512_S8192x10x512_2_0_01_1_n_n : DotDims S8192x10x16 S16x512 S8192x10x512 where
  lhsContracting := [2]
  rhsContracting := [0]
  lhsNonContracting := [0, 1]
  rhsNonContracting := [1]
  lhsBatch := []
  rhsBatch := []
  wf := dot_S8192x10x16_S16x512_S8192x10x512_2_0_01_1_n_n_wf
def dot_S8192x32_S32x512_S8192x512_1_0_0_1_n_n : DotDims S8192x32 S32x512 S8192x512 where
  lhsContracting := [1]
  rhsContracting := [0]
  lhsNonContracting := [0]
  rhsNonContracting := [1]
  lhsBatch := []
  rhsBatch := []
  wf := dot_S8192x32_S32x512_S8192x512_1_0_0_1_n_n_wf

class Facts : Prop extends Facts₀ where

variable [Facts]
-- ==== Proof.Spec.lean ====
/-
  What both programs compute, as functions of the argument arrays, index by index, on the extended reals.

  An observation row has 643 columns: twenty battery groups of 9 columns (a marker, then 8 features) from column 0,
  twenty event groups of 13 (a marker, then 12 features) from column 180, ten groups of 17 (a marker, then 16
  features) from column 440, and one last group of 33 (a marker at column 610, then 32 features) from column 610.
  Feature `d` of group `n` of a segment that starts at column `o` with groups `g` wide sits at column
  `o + g * n + 1 + d`.  A token is its group's feature row times the type's weight matrix plus the type's bias:
  token `(b, n, e) = (∑ d, feature b n d * W d e) + bias e`.  The first result lays the battery tokens (rows 0–19)
  before the event tokens (rows 20–39); the second holds the ten tokens of the third type; the third the one token of
  the last group, on a unit middle axis.
-/
import Idealize.ShloMosaic.PureOps.Ideal
import Idealize.ShloMosaic.Lib.ValueIdx

noncomputable section

open Idealize.ShloMosaic Idealize.ShloMosaic.ValueIdx
open scoped BigOperators

namespace Cert.Tokens

/-- A feature row against a weight column, plus the bias entry. -/
def dotBias {D : Nat} (x w : Fin D → EReal) (β : EReal) : EReal := (∑ d : Fin D, x d * w d) + β

/-- Battery feature `d` of group `n` of row `b`: column `9 n + 1 + d`. -/
def battAt (obs : FVec Ideal ⟨2, ![8192, 643]⟩ .f32) (b : Fin 8192) (n : Fin 20) (d : Fin 8) : EReal :=
  obs (ix2 b ⟨9 * n.val + 1 + d.val, by omega⟩)
/-- Event feature `d` of group `n` of row `b`: column `180 + 13 n + 1 + d`. -/
def evAt (obs : FVec Ideal ⟨2, ![8192, 643]⟩ .f32) (b : Fin 8192) (n : Fin 20) (d : Fin 12) : EReal :=
  obs (ix2 b ⟨180 + 13 * n.val + 1 + d.val, by omega⟩)
/-- Feature `d` of group `n` of the third type: column `440 + 17 n + 1 + d`. -/
def sroAt (obs : FVec Ideal ⟨2, ![8192, 643]⟩ .f32) (b : Fin 8192) (n : Fin 10) (d : Fin 16) : EReal :=
  obs (ix2 b ⟨440 + 17 * n.val + 1 + d.val, by omega⟩)
/-- Feature `d` of the last group: column `611 + d`. -/
def nfcAt (obs : FVec Ideal ⟨2, ![8192, 643]⟩ .f32) (b : Fin 8192) (d : Fin 32) : EReal :=
  obs (ix2 b ⟨611 + d.val, by omega⟩)

/-- The four feature arrays. -/
def battFeat (obs : FVec Ideal ⟨2, ![8192, 643]⟩ .f32) : FVec Ideal ⟨3, ![8192, 20, 8]⟩ .f32 :=
  fun j => battAt obs (j 0) (j 1) (j 2)
def evFeat (obs : FVec Ideal ⟨2, ![8192, 643]⟩ .f32) : FVec Ideal ⟨3, ![8192, 20, 12]⟩ .f32 :=
  fun j => evAt obs (j 0) (j 1) (j 2)
def sroFeat (obs : FVec Ideal ⟨2, ![8192, 643]⟩ .f32) : FVec Ideal ⟨3, ![8192, 10, 16]⟩ .f32 :=
  fun j => sroAt obs (j 0) (j 1) (j 2)
def nfcFeat (obs : FVec Ideal ⟨2, ![8192, 643]⟩ .f32) : FVec Ideal ⟨2, ![8192, 32]⟩ .f32 :=
  fun j => nfcAt obs (j 0) (j 1)

theorem battFeat_ix3 (obs : FVec Ideal ⟨2, ![8192, 643]⟩ .f32) (b : Fin 8192) (n : Fin 20) (d : Fin 8) :
    battFeat obs (ix3 b n d) = battAt obs b n d := rfl
theorem evFeat_ix3 (obs : FVec Ideal ⟨2, ![8192, 643]⟩ .f32) (b : Fin 8192) (n : Fin 20) (d : Fin 12) :
    evFeat obs (ix3 b n d) = evAt obs b n d := rfl
theorem sroFeat_ix3 (obs : FVec Ideal ⟨2, ![8192, 643]⟩ .f32) (b : Fin 8192) (n : Fin 10) (d : Fin 16) :
    sroFeat obs (ix3 b n d) = sroAt obs b n d := rfl
theorem nfcFeat_ix2 (obs : FVec Ideal ⟨2, ![8192, 643]⟩ .f32) (b : Fin 8192) (d : Fin 32) :
    nfcFeat obs (ix2 b d) = nfcAt obs b d := rfl

/-- A bias vector as the one-row matrix the kernel is handed. -/
def rowOf (β : FVec Ideal ⟨1, ![512]⟩ .f32) : FVec Ideal ⟨2, ![1, 512]⟩ .f32 := fun j => β (ix1 (j 1))
theorem rowOf_ix2 (β : FVec Ideal ⟨1, ![512]⟩ .f32) (u : Fin 1) (e : Fin 512) : rowOf β (ix2 u e) = β (ix1 e) := rfl

/-- One token of a rank-3 feature array: row `(b, n)` of the features against column `e` of the weights, plus the
    bias at `e`. -/
def tok3 {N D : Nat} (X : FVec Ideal ⟨3, ![8192, N, D]⟩ .f32) (W : FVec Ideal ⟨2, ![D, 512]⟩ .f32)
    (β : FVec Ideal ⟨1, ![512]⟩ .f32) (b : Fin 8192) (n : Fin N) (e : Fin 512) : EReal :=
  dotBias (fun d => X (ix3 b n d)) (fun d => W (ix2 d e)) (β (ix1 e))
/-- One token of a rank-2 feature array. -/
def tok2 {D : Nat} (X : FVec Ideal ⟨2, ![8192, D]⟩ .f32) (W : FVec Ideal ⟨2, ![D, 512]⟩ .f32)
    (β : FVec Ideal ⟨1, ![512]⟩ .f32) (b : Fin 8192) (e : Fin 512) : EReal :=
  dotBias (fun d => X (ix2 b d)) (fun d => W (ix2 d e)) (β (ix1 e))

/-- The first result at coordinates: a battery token on rows 0–19, an event token on rows 20–39. -/
def caAt (obs : FVec Ideal ⟨2, ![8192, 643]⟩ .f32) (Wb : FVec Ideal ⟨2, ![8, 512]⟩ .f32) (bb : FVec Ideal ⟨1, ![512]⟩ .f32)
    (We : FVec Ideal ⟨2, ![12, 512]⟩ .f32) (be : FVec Ideal ⟨1, ![512]⟩ .f32) (b : Fin 8192) (n : Fin 40) (e : Fin 512) : EReal :=
  if h : n.val < 20 then tok3 (battFeat obs) Wb bb b ⟨n.val, h⟩ e
  else tok3 (evFeat obs) We be b ⟨n.val - 20, by omega⟩ e

/-- The first result: battery tokens then event tokens along the middle axis. -/
def caTokens (obs : FVec Ideal ⟨2, ![8192, 643]⟩ .f32) (Wb : FVec Ideal ⟨2, ![8, 512]⟩ .f32) (bb : FVec Ideal ⟨1, ![512]⟩ .f32)
    (We : FVec Ideal ⟨2, ![12, 512]⟩ .f32) (be : FVec Ideal ⟨1, ![512]⟩ .f32) : FVec Ideal ⟨3, ![8192, 40, 512]⟩ .f32 :=
  fun j => caAt obs Wb bb We be (j 0) (j 1) (j 2)
/-- The second result: the third type's tokens. -/
def sroTokens (obs : FVec Ideal ⟨2, ![8192, 643]⟩ .f32) (Ws : FVec Ideal ⟨2, ![16, 512]⟩ .f32) (bs : FVec Ideal ⟨1, ![512]⟩ .f32) :
    FVec Ideal ⟨3, ![8192, 10, 512]⟩ .f32 :=
  fun j => tok3 (sroFeat obs) Ws bs (j 0) (j 1) (j 2)
/-- The third result: the last group's token, on a unit middle axis. -/
def nfcTokens (obs : FVec Ideal ⟨2, ![8192, 643]⟩ .f32) (Wn : FVec Ideal ⟨2, ![32, 512]⟩ .f32) (bn : FVec Ideal ⟨1, ![512]⟩ .f32) :
    FVec Ideal ⟨3, ![8192, 1, 512]⟩ .f32 :=
  fun j => tok2 (nfcFeat obs) Wn bn (j 0) (j 2)

theorem caTokens_ix3 (obs : FVec Ideal ⟨2, ![8192, 643]⟩ .f32) (Wb : FVec Ideal ⟨2, ![8, 512]⟩ .f32) (bb : FVec Ideal ⟨1, ![512]⟩ .f32)
    (We : FVec Ideal ⟨2, ![12, 512]⟩ .f32) (be : FVec Ideal ⟨1, ![512]⟩ .f32) (b : Fin 8192) (n : Fin 40) (e : Fin 512) :
    caTokens obs Wb bb We be (ix3 b n e) = caAt obs Wb bb We be b n e := rfl
theorem sroTokens_ix3 (obs : FVec Ideal ⟨2, ![8192, 643]⟩ .f32) (Ws : FVec Ideal ⟨2, ![16, 512]⟩ .f32) (bs : FVec Ideal ⟨1, ![512]⟩ .f32)
    (b : Fin 8192) (n : Fin 10) (e : Fin 512) :
    sroTokens obs Ws bs (ix3 b n e) = tok3 (sroFeat obs) Ws bs b n e := rfl
theorem nfcTokens_ix3 (obs : FVec Ideal ⟨2, ![8192, 643]⟩ .f32) (Wn : FVec Ideal ⟨2, ![32, 512]⟩ .f32) (bn : FVec Ideal ⟨1, ![512]⟩ .f32)
    (b : Fin 8192) (u : Fin 1) (e : Fin 512) :
    nfcTokens obs Wn bn (ix3 b u e) = tok2 (nfcFeat obs) Wn bn b e := rfl

end Cert.Tokens

end
-- ==== Proof.KernelHost.lean ====
/-
  What the region finds in its windows' arrays.  Before the launch @main cuts each segment out of the observation
  rows (columns `o … o + g N`), reshapes a row's segment into `N` groups of `g` columns, and drops each group's
  first column (the marker): entry `(b, n, d)` of the result is the observation's entry at row `b`, column
  `o + g n + 1 + d` — the feature arrays.  The last group's features are one cut, columns 611–642.  Each bias
  vector is handed over as a one-row matrix.
-/
import proofs.«410713_j84232898609863_3_alg».proof.Proof.Gen.KernelIdeal.Frame
import proofs.«410713_j84232898609863_3_alg».proof.Proof.Spec
import Idealize.ShloMosaic.Lib.StableHlo.Run
import Idealize.ShloMosaic.Lib.Pipeline.Value
import Idealize.ShloMosaic.Lib.ValueLayout

noncomputable section

namespace Cert.KernelIdeal.HostIn

open Cert.KernelIdeal Cert.KernelIdeal.Gen Idealize.ShloMosaic Idealize.ShloMosaic.TcCoe Idealize.SL.Sem
open Idealize.ShloMosaic.ValueIdx Cert.Tokens

variable (m : (ℓ : Loc nD τ sig) → Buf (Elt Ideal) ℓ)

section Reads

variable {α : Type}

/-- A rank-3 array cut along its last axis from `o` reads, at `(a, i, j)`, the source at `(a, i, k)` with `k = o + j`. -/
private theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (i : Fin n1) (j : Fin m) (k : Fin n2) (hk : k.val = o + j.val) :
    extractStridedSlice ⟨3, ![n0, n1, m]⟩ ![0, 0, o] X h (ix3 a i j) = X (ix3 a i k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Columns `o … o + N g` of a matrix cut out, each row regrouped into `N` groups of `g` columns, and each group's
    first column dropped: entry `(b, n, d)` of the result is the matrix's entry at row `b`, column `o + g n + 1 + d`.
    In row-major order position `((b N + n) g + (1 + d))` of the regrouped array is position `b (N g) + (g n + 1 + d)`
    of the cut. -/
private theorem cut_group_drop {R C W N g D : Nat} (o : Nat) (X : (⟨2, ![R, C]⟩ : Shape).Idx → α)
    (h₁ : (⟨2, ![R, C]⟩ : Shape).Slices ![0, o] ⟨2, ![R, W]⟩)
    (h₂ : (⟨2, ![R, W]⟩ : Shape).ShapeCasts ⟨3, ![R, N, g]⟩)
    (h₃ : (⟨3, ![R, N, g]⟩ : Shape).Slices ![0, 0, 1] ⟨3, ![R, N, D]⟩)
    (hW : W = N * g) (hD : 1 + D ≤ g)
    (b : Fin R) (n : Fin N) (d : Fin D) (k : Fin C) (hk : k.val = o + g * n.val + 1 + d.val) :
    extractStridedSlice ⟨3, ![R, N, D]⟩ ![0, 0, 1]
      (shapeCast ⟨3, ![R, N, g]⟩ (extractStridedSlice ⟨2, ![R, W]⟩ ![0, o] X h₁) h₂) h₃ (ix3 b n d) = X (ix2 b k) := by
  have hd : 1 + d.val < g := by have := d.isLt; omega
  have hw : g * n.val + 1 + d.val < W := by
    have h1 : g * n.val + g ≤ g * N := by
      have := Nat.mul_le_mul_left g (Nat.succ_le_of_lt n.isLt)
      rwa [Nat.mul_succ] at this
    rw [hW, Nat.mul_comm N g]; omega
  refine (slice3_axis2_apply 1 _ h₃ b n d ⟨1 + d.val, hd⟩ rfl).trans ?_
  refine (shapeCast_apply _ h₂ _ (ix2 b ⟨g * n.val + 1 + d.val, hw⟩) ?_).trans ?_
  · rw [Shape.rowMajor_val_two, Shape.rowMajor_val_three]
    show b.val * W + (g * n.val + 1 + d.val) = (b.val * N + n.val) * g + (1 + d.val)
    subst hW; ring
  · exact slice2_axis1_apply o X h₁ b _ k (by rw [hk]; show _ = o + (g * n.val + 1 + d.val); omega)

end Reads

theorem V_v2 (c : Dev nD) : (V m c main_v2 : S8192x20x8.Idx → EReal) = battFeat (m ((c : Thread nD τ).loc main_arg0)) := by
  dsimp only [Gen.V, Gen.hostOps0]
  after_results
  funext j
  obtain ⟨b, n, d, rfl⟩ : ∃ (b : Fin 8192) (n : Fin 20) (d : Fin 8), j = ix3 b n d := ⟨j 0, j 1, j 2, eq_ix3 j⟩
  exact cut_group_drop 0 _ slices_S8192x643_S8192x180_0_0 shapeCasts_S8192x180_S8192x20x9
    slices_S8192x20x9_S8192x20x8_0_0_1 rfl (by omega) b n d _
    (by show 9 * n.val + 1 + d.val = 0 + 9 * n.val + 1 + d.val; omega)
theorem V_v5 (c : Dev nD) : (V m c main_v5 : S8192x20x12.Idx → EReal) = evFeat (m ((c : Thread nD τ).loc main_arg0)) := by
  dsimp only [Gen.V, Gen.hostOps0]
  after_results
  funext j
  obtain ⟨b, n, d, rfl⟩ : ∃ (b : Fin 8192) (n : Fin 20) (d : Fin 12), j = ix3 b n d := ⟨j 0, j 1, j 2, eq_ix3 j⟩
  exact cut_group_drop 180 _ slices_S8192x643_S8192x260_0_180 shapeCasts_S8192x260_S8192x20x13
    slices_S8192x20x13_S8192x20x12_0_0_1 rfl (by omega) b n d _
    (by show 180 + 13 * n.val + 1 + d.val = 180 + 13 * n.val + 1 + d.val; omega)
theorem V_v8 (c : Dev nD) : (V m c main_v8 : S8192x10x16.Idx → EReal) = sroFeat (m ((c : Thread nD τ).loc main_arg0)) := by
  dsimp only [Gen.V, Gen.hostOps0]
  after_results
  funext j
  obtain ⟨b, n, d, rfl⟩ : ∃ (b : Fin 8192) (n : Fin 10) (d : Fin 16), j = ix3 b n d := ⟨j 0, j 1, j 2, eq_ix3 j⟩
  exact cut_group_drop 440 _ slices_S8192x643_S8192x170_0_440 shapeCasts_S8192x170_S8192x10x17
    slices_S8192x10x17_S8192x10x16_0_0_1 rfl (by omega) b n d _
    (by show 440 + 17 * n.val + 1 + d.val = 440 + 17 * n.val + 1 + d.val; omega)
theorem V_v9 (c : Dev nD) : (V m c main_v9 : S8192x32.Idx → EReal) = nfcFeat (m ((c : Thread nD τ).loc main_arg0)) := by
  dsimp only [Gen.V, Gen.hostOps0]
  after_results
  funext j
  obtain ⟨b, d, rfl⟩ : ∃ (b : Fin 8192) (d : Fin 32), j = ix2 b d := ⟨j 0, j 1, eq_ix2 j⟩
  exact slice2_axis1_apply 611 _ slices_S8192x643_S8192x32_0_611 b d _ rfl
theorem V_v10 (c : Dev nD) : (V m c main_v10 : S1x512.Idx → EReal) = rowOf (m ((c : Thread nD τ).loc main_arg2)) := by
  dsimp only [Gen.V, Gen.hostOps0]
  after_results
  funext j
  obtain ⟨u, e, rfl⟩ : ∃ (u : Fin 1) (e : Fin 512), j = ix2 u e := ⟨j 0, j 1, eq_ix2 j⟩
  exact shapeCast_a_1a_apply _ shapeCasts_S512_S1x512 u e
theorem V_v11 (c : Dev nD) : (V m c main_v11 : S1x512.Idx → EReal) = rowOf (m ((c : Thread nD τ).loc main_arg4)) := by
  dsimp only [Gen.V, Gen.hostOps0]
  after_results
  funext j
  obtain ⟨u, e, rfl⟩ : ∃ (u : Fin 1) (e : Fin 512), j = ix2 u e := ⟨j 0, j 1, eq_ix2 j⟩
  exact shapeCast_a_1a_apply _ shapeCasts_S512_S1x512 u e
theorem V_v12 (c : Dev nD) : (V m c main_v12 : S1x512.Idx → EReal) = rowOf (m ((c : Thread nD τ).loc main_arg6)) := by
  dsimp only [Gen.V, Gen.hostOps0]
  after_results
  funext j
  obtain ⟨u, e, rfl⟩ : ∃ (u : Fin 1) (e : Fin 512), j = ix2 u e := ⟨j 0, j 1, eq_ix2 j⟩
  exact shapeCast_a_1a_apply _ shapeCasts_S512_S1x512 u e
theorem V_v13 (c : Dev nD) : (V m c main_v13 : S1x512.Idx → EReal) = rowOf (m ((c : Thread nD τ).loc main_arg8)) := by
  dsimp only [Gen.V, Gen.hostOps0]
  after_results
  funext j
  obtain ⟨u, e, rfl⟩ : ∃ (u : Fin 1) (e : Fin 512), j = ix2 u e := ⟨j 0, j 1, eq_ix2 j⟩
  exact shapeCast_a_1a_apply _ shapeCasts_S512_S1x512 u e

end Cert.KernelIdeal.HostIn

end
-- ==== Proof.KernelPayload.lean ====
/-
  What the kernel's body stores, read at an index, as a function of the blocks it loaded.  A block of `128` rows
  of features `[128, N, D]` is flattened to `[128 N, D]`, multiplied into a zero accumulator by the weights
  `[D, 512]`, the one-row bias added on every row, and the product laid back out as `[128, N, 512]`: entry
  `(p, n, e)` is the sum over `d` of feature `(p, n, d)` times weight `(d, e)`, plus the bias at `e`.  The first
  store concatenates two such products along the group axis; the last has no group axis to flatten and gets a unit
  one at the end.
-/
import proofs.«410713_j84232898609863_3_alg».proof.Proof.Gen.KernelIdeal.Skeleton
import proofs.«410713_j84232898609863_3_alg».proof.Proof.Spec
import Idealize.ShloMosaic.PureOps.Ideal.Laws
import Idealize.ShloMosaic.Lib.Pipeline.Value
import Idealize.ShloMosaic.Lib.ValueLayout

noncomputable section

namespace Cert.KernelIdeal.Payload

open Cert.KernelIdeal Cert.KernelIdeal.Gen Idealize.ShloMosaic Idealize.ShloMosaic.ValueIdx Cert.Tokens
open scoped BigOperators

/-- A plain product `[M, K] × [K, N]` into a zero accumulator, read at `(q, e)`: the sum over the one contracted
    axis of row `q` of the left operand against column `e` of the right. -/
private theorem plain_matmul_zero_apply {M K N : Nat} (D : DotDims ⟨2, ![M, K]⟩ ⟨2, ![K, N]⟩ ⟨2, ![M, N]⟩)
    (hD : D = DotDims.plain M K N)
    (X : FVec Ideal ⟨2, ![M, K]⟩ .f32) (W : FVec Ideal ⟨2, ![K, N]⟩ .f32) (q : Fin M) (e : Fin N) :
    matmul (F := Ideal) D none X W (constant ⟨2, ![M, N]⟩ .f32 0x00000000#32) (ix2 q e)
      = ∑ d : Fin K, X (ix2 q d) * W (ix2 d e) := by
  subst hD
  refine (Ideal.matmul_constant_zero_apply (DotDims.plain M K N) none X W (ix2 q e)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 q e) ((contrEquiv1 (DotDims.plain M K N) K rfl rfl).symm k) = ix2 q k :=
    funext fun a => Fin.ext (by
      match a with
      | ⟨0, _⟩ => rfl
      | ⟨1, _⟩ => exact ((DotDims.plain M K N).lhsIdx_val_of_single rfl _ _).trans hk)
  have er : (DotDims.plain M K N).rhsIdx (ix2 q e) ((contrEquiv1 (DotDims.plain M K N) K rfl rfl).symm k) = ix2 k e :=
    funext fun a => Fin.ext (by
      match a with
      | ⟨0, _⟩ => exact ((DotDims.plain M K N).rhsIdx_val_of_single rfl _ _).trans hk
      | ⟨1, _⟩ => rfl)
  rw [el, er]

/-- The product plus the one-row bias on every row, read at `(q, e)`. -/
private theorem core_apply {M K N : Nat} (D : DotDims ⟨2, ![M, K]⟩ ⟨2, ![K, N]⟩ ⟨2, ![M, N]⟩)
    (hD : D = DotDims.plain M K N)
    (X : FVec Ideal ⟨2, ![M, K]⟩ .f32) (W : FVec Ideal ⟨2, ![K, N]⟩ .f32) (r : FVec Ideal ⟨2, ![1, N]⟩ .f32)
    (hs : (⟨2, ![1, N]⟩ : Shape).ShapeCasts ⟨2, ![1, N]⟩) (hb : (⟨2, ![1, N]⟩ : Shape).Broadcasts ⟨2, ![M, N]⟩)
    (q : Fin M) (e : Fin N) :
    addf (matmul (F := Ideal) D none X W (constant ⟨2, ![M, N]⟩ .f32 0x00000000#32))
        (broadcastTo ⟨2, ![M, N]⟩ (shapeCast ⟨2, ![1, N]⟩ r hs) hb) (ix2 q e)
      = dotBias (fun d : Fin K => X (ix2 q d)) (fun d => W (ix2 d e)) (r (ix2 (0 : Fin 1) e)) := by
  rw [addf_apply, plain_matmul_zero_apply D hD, shapeCast_self, broadcastTo_1b_ab_apply]
  rfl

/-- Rows `[A, B, C]` flattened to `[R, C]` with `R = A B`: row `q = p B + n` of the flat array is row `(p, n)`. -/
private theorem flatten_apply {α : Type} {A B C R : Nat} (x : (⟨3, ![A, B, C]⟩ : Shape).Idx → α)
    (h : (⟨3, ![A, B, C]⟩ : Shape).ShapeCasts ⟨2, ![R, C]⟩) (p : Fin A) (n : Fin B) (d : Fin C) (q : Fin R)
    (hq : q.val = p.val * B + n.val) :
    shapeCast ⟨2, ![R, C]⟩ x h (ix2 q d) = x (ix3 p n d) :=
  shapeCast_apply x h _ _ (by
    rw [Shape.rowMajor_val_three, Shape.rowMajor_val_two]
    show (p.val * B + n.val) * C + d.val = q.val * C + d.val
    rw [hq])

/-- The flat rows `[R, C]` laid back out as `[A, B, C]`: entry `(p, n)` is flat row `q = p B + n`. -/
private theorem unflatten_apply {α : Type} {A B C R : Nat} (y : (⟨2, ![R, C]⟩ : Shape).Idx → α)
    (h : (⟨2, ![R, C]⟩ : Shape).ShapeCasts ⟨3, ![A, B, C]⟩) (p : Fin A) (n : Fin B) (e : Fin C) (q : Fin R)
    (hq : q.val = p.val * B + n.val) :
    shapeCast ⟨3, ![A, B, C]⟩ y h (ix3 p n e) = y (ix2 q e) :=
  shapeCast_apply y h _ _ (by
    rw [Shape.rowMajor_val_three, Shape.rowMajor_val_two]
    show q.val * C + e.val = (p.val * B + n.val) * C + e.val
    rw [hq])

/-- One projection whole: features `[A, B, K]` flattened to `[R, K]`, multiplied into zero by `[K, N]` and
    biased, read at flat row `q = p B + n`: the token of feature row `(p, n)`. -/
private theorem block_apply {A B K N R : Nat} (D : DotDims ⟨2, ![R, K]⟩ ⟨2, ![K, N]⟩ ⟨2, ![R, N]⟩)
    (hD : D = DotDims.plain R K N)
    (x : FVec Ideal ⟨3, ![A, B, K]⟩ .f32) (W : FVec Ideal ⟨2, ![K, N]⟩ .f32) (r : FVec Ideal ⟨2, ![1, N]⟩ .f32)
    (h0 : (⟨3, ![A, B, K]⟩ : Shape).ShapeCasts ⟨3, ![A, B, K]⟩) (h1 : (⟨3, ![A, B, K]⟩ : Shape).ShapeCasts ⟨2, ![R, K]⟩)
    (hs : (⟨2, ![1, N]⟩ : Shape).ShapeCasts ⟨2, ![1, N]⟩) (hb : (⟨2, ![1, N]⟩ : Shape).Broadcasts ⟨2, ![R, N]⟩)
    (p : Fin A) (n : Fin B) (e : Fin N) (q : Fin R) (hq : q.val = p.val * B + n.val) :
    addf (matmul (F := Ideal) D none (shapeCast ⟨2, ![R, K]⟩ (shapeCast ⟨3, ![A, B, K]⟩ x h0) h1) W
          (constant ⟨2, ![R, N]⟩ .f32 0x00000000#32))
        (broadcastTo ⟨2, ![R, N]⟩ (shapeCast ⟨2, ![1, N]⟩ r hs) hb) (ix2 q e)
      = dotBias (fun d : Fin K => x (ix3 p n d)) (fun d => W (ix2 d e)) (r (ix2 (0 : Fin 1) e)) := by
  rw [core_apply D hD, shapeCast_self x h0]
  exact congrArg (fun f => dotBias f (fun d => W (ix2 d e)) (r (ix2 (0 : Fin 1) e)))
    (funext fun d => flatten_apply x h1 p n d q hq)

/-- The first store: battery tokens on rows 0–19 of the group axis, event tokens on rows 20–39. -/
theorem pay3_apply (x0 : Vec Ideal S128x20x8 .f32) (W0 : Vec Ideal S8x512 .f32) (r0 : Vec Ideal S1x512 .f32)
    (x1 : Vec Ideal S128x20x12 .f32) (W1 : Vec Ideal S12x512 .f32) (r1 : Vec Ideal S1x512 .f32)
    (p : Fin 128) (n : Fin 40) (e : Fin 512) :
    k0_pay3 (F := Ideal) x0 W0 r0 x1 W1 r1 (ix3 p n e)
      = if h : n.val < 20 then dotBias (fun d : Fin 8 => x0 (ix3 p ⟨n.val, h⟩ d)) (fun d => W0 (ix2 d e)) (r0 (ix2 (0 : Fin 1) e))
        else dotBias (fun d : Fin 12 => x1 (ix3 p ⟨n.val - 20, by omega⟩ d)) (fun d => W1 (ix2 d e)) (r1 (ix2 (0 : Fin 1) e)) := by
  by_cases h : n.val < 20
  · -- a group below 20 falls in the first piece, at the same coordinates
    rw [dif_pos h]
    refine (concatenate_pair_apply_left (t := S128x40x512) (1 : Fin 3) _ _
      concatenates_S128x20x512_S128x20x512_S128x40x512_d1 (ix3 p n e) rfl (ix3 p (⟨n.val, h⟩ : Fin 20) e)
      (fun b => by match b with | ⟨0, _⟩ => rfl | ⟨1, _⟩ => rfl | ⟨2, _⟩ => rfl)).trans ?_
    refine (unflatten_apply _ shapeCasts_S2560x512_S128x20x512 p (⟨n.val, h⟩ : Fin 20) e
      (⟨p.val * 20 + n.val, by omega⟩ : Fin 2560) rfl).trans ?_
    exact block_apply dot_S2560x8_S8x512_S2560x512_1_0_0_1_n_n rfl x0 W0 r0 shapeCasts_S128x20x8_S128x20x8
      shapeCasts_S128x20x8_S2560x8 shapeCasts_S1x512_S1x512 broadcasts_S1x512_S2560x512 p ⟨n.val, h⟩ e _ rfl
  · -- a group from 20 on falls in the second piece, twenty groups down
    rw [dif_neg h]
    have hn : n.val - 20 < 20 := by omega
    refine (concatenate_pair_apply_right (t := S128x40x512) (1 : Fin 3) _ _
      concatenates_S128x20x512_S128x20x512_S128x40x512_d1 (ix3 p n e) rfl rfl (ix3 p (⟨n.val - 20, hn⟩ : Fin 20) e)
      (fun b hb => by
        match b with
        | ⟨0, _⟩ => rfl
        | ⟨1, _⟩ => exact absurd rfl hb
        | ⟨2, _⟩ => rfl)
      (by show n.val - 20 + 20 = n.val; omega)).trans ?_
    refine (unflatten_apply _ shapeCasts_S2560x512_S128x20x512 p (⟨n.val - 20, hn⟩ : Fin 20) e
      (⟨p.val * 20 + (n.val - 20), by omega⟩ : Fin 2560) rfl).trans ?_
    exact block_apply dot_S2560x12_S12x512_S2560x512_1_0_0_1_n_n rfl x1 W1 r1 shapeCasts_S128x20x12_S128x20x12
      shapeCasts_S128x20x12_S2560x12 shapeCasts_S1x512_S1x512 broadcasts_S1x512_S2560x512 p ⟨n.val - 20, hn⟩ e _ rfl

/-- The second store's value before its last re-layout: row `q = 10 p + n` of the flattened block. -/
theorem pay4_apply (x2 : Vec Ideal S128x10x16 .f32) (W2 : Vec Ideal S16x512 .f32) (r2 : Vec Ideal S1x512 .f32)
    (p : Fin 128) (n : Fin 10) (e : Fin 512) :
    k0_pay4 (F := Ideal) x2 W2 r2 (ix2 (⟨p.val * 10 + n.val, by omega⟩ : Fin 1280) e)
      = dotBias (fun d : Fin 16 => x2 (ix3 p n d)) (fun d => W2 (ix2 d e)) (r2 (ix2 (0 : Fin 1) e)) := by
  exact block_apply dot_S1280x16_S16x512_S1280x512_1_0_0_1_n_n rfl x2 W2 r2 shapeCasts_S128x10x16_S128x10x16
    shapeCasts_S128x10x16_S1280x16 shapeCasts_S1x512_S1x512 broadcasts_S1x512_S1280x512 p n e _ rfl

/-- The third store: the last group's token, on a unit group axis. -/
theorem pay2_apply (x3 : Vec Ideal S128x32 .f32) (W3 : Vec Ideal S32x512 .f32) (r3 : Vec Ideal S1x512 .f32)
    (p : Fin 128) (u : Fin 1) (e : Fin 512) :
    k0_pay2 (F := Ideal) x3 W3 r3 (ix3 p u e)
      = dotBias (fun d : Fin 32 => x3 (ix2 p d)) (fun d => W3 (ix2 d e)) (r3 (ix2 (0 : Fin 1) e)) := by
  -- the unit axis carries nothing: entry `(p, u, e)` is entry `(p, e)` of the biased product
  unfold k0_pay2
  refine (unflatten_apply _ shapeCasts_S128x512_S128x1x512 p u e p (by have := u.isLt; omega)).trans ?_
  refine (core_apply dot_S128x32_S32x512_S128x512_1_0_0_1_n_n rfl _ W3 r3 shapeCasts_S1x512_S1x512
    broadcasts_S1x512_S128x512 p e).trans ?_
  rw [shapeCast_self x3 shapeCasts_S128x32_S128x32]

end Cert.KernelIdeal.Payload

end
-- ==== Proof.KernelFinal.lean ====
/-
  From what each grid point writes back to the three whole result arrays.

  Point `t` of the 64 works on observation rows `128 t … 128 t + 127`: its feature blocks are rows `128 t + p` of
  the feature arrays, the weights and the one-row biases are handed over whole at every point, and each output block
  is rows `128 t + p` of its result.  So what point `t` writes back is block `t` of the specification's array
  (the body's stored value at `(p, n, e)` is the token of row `128 t + p`), and since row `b` lies in the block of
  point `b / 128` the blocks cover each result: after the run each result IS the specification's array.
-/
import proofs.«410713_j84232898609863_3_alg».proof.Proof.KernelValueBlocks
import proofs.«410713_j84232898609863_3_alg».proof.Proof.KernelHost
import proofs.«410713_j84232898609863_3_alg».proof.Proof.KernelPayload

noncomputable section

namespace Cert.KernelIdeal.Final

open Cert.KernelIdeal Cert.KernelIdeal.Gen Cert.KernelIdeal.ValueP Cert.KernelIdeal.HostIn Cert.KernelIdeal.Payload
open Idealize.ShloMosaic Idealize.ShloMosaic.TcCoe Idealize.SL.Sem Idealize.ShloMosaic.ValueIdx Cert.Tokens
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## The index maps, decided over the grid -/

/-- A window that moves with the batch: block index `(t, 0, 0)` (or `(t, 0)`) at point `t`. -/
theorem idx_batch : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_12.index t (0 : Fin 3) = t.val ∧ win0_12.index t (1 : Fin 3) = 0 ∧ win0_12.index t (2 : Fin 3) = 0
    ∧ win0_13.index t (0 : Fin 3) = t.val ∧ win0_13.index t (1 : Fin 3) = 0 ∧ win0_13.index t (2 : Fin 3) = 0
    ∧ win0_14.index t (0 : Fin 3) = t.val ∧ win0_14.index t (1 : Fin 3) = 0 ∧ win0_14.index t (2 : Fin 3) = 0 :=
  (by decide +kernel : ∀ t : Fin grid0.N, _)

/-- A window handed over whole at every point: block index `(0, 0)`. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

theorem t_lt (t : Fin cfg0.N) : t.val < 64 := Nat.lt_of_lt_of_eq t.isLt N_0

/-! ## The input blocks at a point -/

/-- The battery feature block of point `t`: rows `128 t + p` of the feature array. -/
theorem blk0 (c : Dev nD) (t : Fin cfg0.N) (p : Fin 128) (n : Fin 20) (d : Fin 8) :
    iblk m c 0 t (ix3 p n d) = battAt (m ((c : Thread nD τ).loc main_arg0)) ⟨t.val * 128 + p.val, by have := t_lt t; omega⟩ n d := by
  obtain ⟨e0, e1, e2, -⟩ := idx_batch t
  show V m c main_v2 (((cfg0.win 0).blk t).view.emb (ix3 p n d)) = _
  rw [V_v2]
  refine Eq.trans (congrArg (battFeat (m ((c : Thread nD τ).loc main_arg0))) ?_) (battFeat_ix3 _ _ n d)
  funext a; apply Fin.ext
  match a with
  | ⟨0, _⟩ => show win0_0.index t (0 : Fin 3) * 128 + 1 * p.val = t.val * 128 + p.val; omega
  | ⟨1, _⟩ => show win0_0.index t (1 : Fin 3) * 20 + 1 * n.val = n.val; omega
  | ⟨2, _⟩ => show win0_0.index t (2 : Fin 3) * 8 + 1 * d.val = d.val; omega

/-- The event feature block of point `t`. -/
theorem blk1 (c : Dev nD) (t : Fin cfg0.N) (p : Fin 128) (n : Fin 20) (d : Fin 12) :
    iblk m c 1 t (ix3 p n d) = evAt (m ((c : Thread nD τ).loc main_arg0)) ⟨t.val * 128 + p.val, by have := t_lt t; omega⟩ n d := by
  obtain ⟨-, -, -, e0, e1, e2, -⟩ := idx_batch t
  show V m c main_v5 (((cfg0.win 1).blk t).view.emb (ix3 p n d)) = _
  rw [V_v5]
  refine Eq.trans (congrArg (evFeat (m ((c : Thread nD τ).loc main_arg0))) ?_) (evFeat_ix3 _ _ n d)
  funext a; apply Fin.ext
  match a with
  | ⟨0, _⟩ => show win0_1.index t (0 : Fin 3) * 128 + 1 * p.val = t.val * 128 + p.val; omega
  | ⟨1, _⟩ => show win0_1.index t (1 : Fin 3) * 20 + 1 * n.val = n.val; omega
  | ⟨2, _⟩ => show win0_1.index t (2 : Fin 3) * 12 + 1 * d.val = d.val; omega

/-- The third type's feature block of point `t`. -/
theorem blk2 (c : Dev nD) (t : Fin cfg0.N) (p : Fin 128) (n : Fin 10) (d : Fin 16) :
    iblk m c 2 t (ix3 p n d) = sroAt (m ((c : Thread nD τ).loc main_arg0)) ⟨t.val * 128 + p.val, by have := t_lt t; omega⟩ n d := by
  obtain ⟨-, -, -, -, -, -, e0, e1, e2, -⟩ := idx_batch t
  show V m c main_v8 (((cfg0.win 2).blk t).view.emb (ix3 p n d)) = _
  rw [V_v8]
  refine Eq.trans (congrArg (sroFeat (m ((c : Thread nD τ).loc main_arg0))) ?_) (sroFeat_ix3 _ _ n d)
  funext a; apply Fin.ext
  match a with
  | ⟨0, _⟩ => show win0_2.index t (0 : Fin 3) * 128 + 1 * p.val = t.val * 128 + p.val; omega
  | ⟨1, _⟩ => show win0_2.index t (1 : Fin 3) * 10 + 1 * n.val = n.val; omega
  | ⟨2, _⟩ => show win0_2.index t (2 : Fin 3) * 16 + 1 * d.val = d.val; omega

/-- The last group's feature block of point `t`. -/
theorem blk3 (c : Dev nD) (t : Fin cfg0.N) (p : Fin 128) (d : Fin 32) :
    iblk m c 3 t (ix2 p d) = nfcAt (m ((c : Thread nD τ).loc main_arg0)) ⟨t.val * 128 + p.val, by have := t_lt t; omega⟩ d := by
  obtain ⟨-, -, -, -, -, -, -, -, -, e0, e1, -⟩ := idx_batch t
  show V m c main_v9 (((cfg0.win 3).blk t).view.emb (ix2 p d)) = _
  rw [V_v9]
  refine Eq.trans (congrArg (nfcFeat (m ((c : Thread nD τ).loc main_arg0))) ?_) (nfcFeat_ix2 _ _ d)
  funext a; apply Fin.ext
  match a with
  | ⟨0, _⟩ => show win0_3.index t (0 : Fin 2) * 128 + 1 * p.val = t.val * 128 + p.val; omega
  | ⟨1, _⟩ => show win0_3.index t (1 : Fin 2) * 32 + 1 * d.val = d.val; omega

/-! ## The weights and the one-row biases: handed over whole at every point -/

theorem blk4 (c : Dev nD) (t : Fin cfg0.N) (d : Fin 8) (e : Fin 512) :
    iblk m c 4 t (ix2 d e) = (m ((c : Thread nD τ).loc main_arg1) : S8x512.Idx → EReal) (ix2 d e) := by
  obtain ⟨e0, e1, -⟩ := idx_whole t
  show V m c main_arg1 (((cfg0.win 4).blk t).view.emb (ix2 d e)) = _
  rw [V_main_arg1]
  refine congrArg _ ?_
  funext a; apply Fin.ext
  match a with
  | ⟨0, _⟩ => show win0_4.index t (0 : Fin 2) * 8 + 1 * d.val = d.val; omega
  | ⟨1, _⟩ => show win0_4.index t (1 : Fin 2) * 512 + 1 * e.val = e.val; omega

theorem blk5 (c : Dev nD) (t : Fin cfg0.N) (u : Fin 1) (e : Fin 512) :
    iblk m c 5 t (ix2 u e) = (m ((c : Thread nD τ).loc main_arg2) : S512.Idx → EReal) (ix1 e) := by
  obtain ⟨-, -, e0, e1, -⟩ := idx_whole t
  show V m c main_v10 (((cfg0.win 5).blk t).view.emb (ix2 u e)) = _
  rw [V_v10]
  refine Eq.trans (congrArg (rowOf (m ((c : Thread nD τ).loc main_arg2))) ?_) (rowOf_ix2 _ u e)
  funext a; apply Fin.ext
  match a with
  | ⟨0, _⟩ => show win0_5.index t (0 : Fin 2) * 1 + 1 * u.val = u.val; omega
  | ⟨1, _⟩ => show win0_5.index t (1 : Fin 2) * 512 + 1 * e.val = e.val; omega

theorem blk6 (c : Dev nD) (t : Fin cfg0.N) (d : Fin 12) (e : Fin 512) :
    iblk m c 6 t (ix2 d e) = (m ((c : Thread nD τ).loc main_arg3) : S12x512.Idx → EReal) (ix2 d e) := by
  obtain ⟨-, -, -, -, e0, e1, -⟩ := idx_whole t
  show V m c main_arg3 (((cfg0.win 6).blk t).view.emb (ix2 d e)) = _
  rw [V_main_arg3]
  refine congrArg _ ?_
  funext a; apply Fin.ext
  match a with
  | ⟨0, _⟩ => show win0_6.index t (0 : Fin 2) * 12 + 1 * d.val = d.val; omega
  | ⟨1, _⟩ => show win0_6.index t (1 : Fin 2) * 512 + 1 * e.val = e.val; omega

theorem blk7 (c : Dev nD) (t : Fin cfg0.N) (u : Fin 1) (e : Fin 512) :
    iblk m c 7 t (ix2 u e) = (m ((c : Thread nD τ).loc main_arg4) : S512.Idx → EReal) (ix1 e) := by
  obtain ⟨-, -, -, -, -, -, e0, e1, -⟩ := idx_whole t
  show V m c main_v11 (((cfg0.win 7).blk t).view.emb (ix2 u e)) = _
  rw [V_v11]
  refine Eq.trans (congrArg (rowOf (m ((c : Thread nD τ).loc main_arg4))) ?_) (rowOf_ix2 _ u e)
  funext a; apply Fin.ext
  match a with
  | ⟨0, _⟩ => show win0_7.index t (0 : Fin 2) * 1 + 1 * u.val = u.val; omega
  | ⟨1, _⟩ => show win0_7.index t (1 : Fin 2) * 512 + 1 * e.val = e.val; omega

theorem blk8 (c : Dev nD) (t : Fin cfg0.N) (d : Fin 16) (e : Fin 512) :
    iblk m c 8 t (ix2 d e) = (m ((c : Thread nD τ).loc main_arg5) : S16x512.Idx → EReal) (ix2 d e) := by
  obtain ⟨-, -, -, -, -, -, -, -, e0, e1, -⟩ := idx_whole t
  show V m c main_arg5 (((cfg0.win 8).blk t).view.emb (ix2 d e)) = _
  rw [V_main_arg5]
  refine congrArg _ ?_
  funext a; apply Fin.ext
  match a with
  | ⟨0, _⟩ => show win0_8.index t (0 : Fin 2) * 16 + 1 * d.val = d.val; omega
  | ⟨1, _⟩ => show win0_8.index t (1 : Fin 2) * 512 + 1 * e.val = e.val; omega

theorem blk9 (c : Dev nD) (t : Fin cfg0.N) (u : Fin 1) (e : Fin 512) :
    iblk m c 9 t (ix2 u e) = (m ((c : Thread nD τ).loc main_arg6) : S512.Idx → EReal) (ix1 e) := by
  obtain ⟨-, -, -, -, -, -, -, -, -, -, e0, e1, -⟩ := idx_whole t
  show V m c main_v12 (((cfg0.win 9).blk t).view.emb (ix2 u e)) = _
  rw [V_v12]
  refine Eq.trans (congrArg (rowOf (m ((c : Thread nD τ).loc main_arg6))) ?_) (rowOf_ix2 _ u e)
  funext a; apply Fin.ext
  match a with
  | ⟨0, _⟩ => show win0_9.index t (0 : Fin 2) * 1 + 1 * u.val = u.val; omega
  | ⟨1, _⟩ => show win0_9.index t (1 : Fin 2) * 512 + 1 * e.val = e.val; omega

theorem blk10 (c : Dev nD) (t : Fin cfg0.N) (d : Fin 32) (e : Fin 512) :
    iblk m c 10 t (ix2 d e) = (m ((c : Thread nD τ).loc main_arg7) : S32x512.Idx → EReal) (ix2 d e) := by
  obtain ⟨-, -, -, -, -, -, -, -, -, -, -, -, e0, e1, -⟩ := idx_whole t
  show V m c main_arg7 (((cfg0.win 10).blk t).view.emb (ix2 d e)) = _
  rw [V_main_arg7]
  refine congrArg _ ?_
  funext a; apply Fin.ext
  match a with
  | ⟨0, _⟩ => show win0_10.index t (0 : Fin 2) * 32 + 1 * d.val = d.val; omega
  | ⟨1, _⟩ => show win0_10.index t (1 : Fin 2) * 512 + 1 * e.val = e.val; omega

theorem blk11 (c : Dev nD) (t : Fin cfg0.N) (u : Fin 1) (e : Fin 512) :
    iblk m c 11 t (ix2 u e) = (m ((c : Thread nD τ).loc main_arg8) : S512.Idx → EReal) (ix1 e) := by
  obtain ⟨-, -, -, -, -, -, -, -, -, -, -, -, -, -, e0, e1⟩ := idx_whole t
  show V m c main_v13 (((cfg0.win 11).blk t).view.emb (ix2 u e)) = _
  rw [V_v13]
  refine Eq.trans (congrArg (rowOf (m ((c : Thread nD τ).loc main_arg8))) ?_) (rowOf_ix2 _ u e)
  funext a; apply Fin.ext
  match a with
  | ⟨0, _⟩ => show win0_11.index t (0 : Fin 2) * 1 + 1 * u.val = u.val; omega
  | ⟨1, _⟩ => show win0_11.index t (1 : Fin 2) * 512 + 1 * e.val = e.val; omega

/-! ## What the body stores at a point, over blocks that are rows `128 T + p` of the feature arrays -/

section Point

variable (obs : FVec Ideal ⟨2, ![8192, 643]⟩ .f32) (T : Nat) (hT : T < 64)

/-- The first store at `(p, n, e)` is the first result's entry at row `128 T + p`. -/
theorem ca_point (Wb : FVec Ideal ⟨2, ![8, 512]⟩ .f32) (bb : FVec Ideal ⟨1, ![512]⟩ .f32)
    (We : FVec Ideal ⟨2, ![12, 512]⟩ .f32) (be : FVec Ideal ⟨1, ![512]⟩ .f32)
    (x0 : Vec Ideal S128x20x8 .f32) (W0 : Vec Ideal S8x512 .f32) (r0 : Vec Ideal S1x512 .f32)
    (x1 : Vec Ideal S128x20x12 .f32) (W1 : Vec Ideal S12x512 .f32) (r1 : Vec Ideal S1x512 .f32)
    (h0 : ∀ (p : Fin 128) (n : Fin 20) (d : Fin 8), x0 (ix3 p n d) = battAt obs ⟨T * 128 + p.val, by omega⟩ n d)
    (hW0 : ∀ (d : Fin 8) (e : Fin 512), W0 (ix2 d e) = Wb (ix2 d e))
    (hr0 : ∀ (u : Fin 1) (e : Fin 512), r0 (ix2 u e) = bb (ix1 e))
    (h1 : ∀ (p : Fin 128) (n : Fin 20) (d : Fin 12), x1 (ix3 p n d) = evAt obs ⟨T * 128 + p.val, by omega⟩ n d)
    (hW1 : ∀ (d : Fin 12) (e : Fin 512), W1 (ix2 d e) = We (ix2 d e))
    (hr1 : ∀ (u : Fin 1) (e : Fin 512), r1 (ix2 u e) = be (ix1 e))
    (p : Fin 128) (n : Fin 40) (e : Fin 512) :
    k0_pay3 (F := Ideal) x0 W0 r0 x1 W1 r1 (ix3 p n e) = caAt obs Wb bb We be ⟨T * 128 + p.val, by omega⟩ n e := by
  rw [pay3_apply]
  unfold caAt tok3
  by_cases h : n.val < 20
  · simp only [dif_pos h, h0, hW0, hr0, battFeat_ix3]
  · simp only [dif_neg h, h1, hW1, hr1, evFeat_ix3]

/-- The second store's value at row `10 p + n` of the flattened block is the second result's entry at row `128 T + p`. -/
theorem sro_point (Ws : FVec Ideal ⟨2, ![16, 512]⟩ .f32) (bs : FVec Ideal ⟨1, ![512]⟩ .f32)
    (x2 : Vec Ideal S128x10x16 .f32) (W2 : Vec Ideal S16x512 .f32) (r2 : Vec Ideal S1x512 .f32)
    (h2 : ∀ (p : Fin 128) (n : Fin 10) (d : Fin 16), x2 (ix3 p n d) = sroAt obs ⟨T * 128 + p.val, by omega⟩ n d)
    (hW2 : ∀ (d : Fin 16) (e : Fin 512), W2 (ix2 d e) = Ws (ix2 d e))
    (hr2 : ∀ (u : Fin 1) (e : Fin 512), r2 (ix2 u e) = bs (ix1 e))
    (p : Fin 128) (n : Fin 10) (e : Fin 512) :
    k0_pay4 (F := Ideal) x2 W2 r2 (ix2 (⟨p.val * 10 + n.val, by omega⟩ : Fin 1280) e)
      = tok3 (sroFeat obs) Ws bs ⟨T * 128 + p.val, by omega⟩ n e := by
  rw [pay4_apply]
  unfold tok3
  simp only [h2, hW2, hr2, sroFeat_ix3]

/-- The third store at `(p, 0, e)` is the third result's entry at row `128 T + p`. -/
theorem nfc_point (Wn : FVec Ideal ⟨2, ![32, 512]⟩ .f32) (bn : FVec Ideal ⟨1, ![512]⟩ .f32)
    (x3 : Vec Ideal S128x32 .f32) (W3 : Vec Ideal S32x512 .f32) (r3 : Vec Ideal S1x512 .f32)
    (h3 : ∀ (p : Fin 128) (d : Fin 32), x3 (ix2 p d) = nfcAt obs ⟨T * 128 + p.val, by omega⟩ d)
    (hW3 : ∀ (d : Fin 32) (e : Fin 512), W3 (ix2 d e) = Wn (ix2 d e))
    (hr3 : ∀ (u : Fin 1) (e : Fin 512), r3 (ix2 u e) = bn (ix1 e))
    (p : Fin 128) (u : Fin 1) (e : Fin 512) :
    k0_pay2 (F := Ideal) x3 W3 r3 (ix3 p u e) = tok2 (nfcFeat obs) Wn bn ⟨T * 128 + p.val, by omega⟩ e := by
  rw [pay2_apply]
  unfold tok2
  simp only [h3, hW3, hr3, nfcFeat_ix2]

end Point

/-! ## What point `t` writes back is block `t` of the specification's array -/

theorem emb12 (t : Fin cfg0.N) (p : Fin 128) (n : Fin 40) (e : Fin 512) :
    ((cfg0.win 12).blk t).view.emb (ix3 p n e) = ix3 (⟨t.val * 128 + p.val, by have := t_lt t; omega⟩ : Fin 8192) n e := by
  obtain ⟨-, -, -, -, -, -, -, -, -, -, -, e0, e1, e2, -⟩ := idx_batch t
  funext a; apply Fin.ext
  match a with
  | ⟨0, _⟩ => show win0_12.index t (0 : Fin 3) * 128 + 1 * p.val = t.val * 128 + p.val; omega
  | ⟨1, _⟩ => show win0_12.index t (1 : Fin 3) * 40 + 1 * n.val = n.val; omega
  | ⟨2, _⟩ => show win0_12.index t (2 : Fin 3) * 512 + 1 * e.val = e.val; omega

theorem emb13 (t : Fin cfg0.N) (p : Fin 128) (n : Fin 10) (e : Fin 512) :
    ((cfg0.win 13).blk t).view.emb (ix3 p n e) = ix3 (⟨t.val * 128 + p.val, by have := t_lt t; omega⟩ : Fin 8192) n e := by
  obtain ⟨-, -, -, -, -, -, -, -, -, -, -, -, -, -, e0, e1, e2, -⟩ := idx_batch t
  funext a; apply Fin.ext
  match a with
  | ⟨0, _⟩ => show win0_13.index t (0 : Fin 3) * 128 + 1 * p.val = t.val * 128 + p.val; omega
  | ⟨1, _⟩ => show win0_13.index t (1 : Fin 3) * 10 + 1 * n.val = n.val; omega
  | ⟨2, _⟩ => show win0_13.index t (2 : Fin 3) * 512 + 1 * e.val = e.val; omega

theorem emb14 (t : Fin cfg0.N) (p : Fin 128) (u : Fin 1) (e : Fin 512) :
    ((cfg0.win 14).blk t).view.emb (ix3 p u e) = ix3 (⟨t.val * 128 + p.val, by have := t_lt t; omega⟩ : Fin 8192) u e := by
  obtain ⟨-, -, -, -, -, -, -, -, -, -, -, -, -, -, -, -, -, e0, e1, e2⟩ := idx_batch t
  funext a; apply Fin.ext
  match a with
  | ⟨0, _⟩ => show win0_14.index t (0 : Fin 3) * 128 + 1 * p.val = t.val * 128 + p.val; omega
  | ⟨1, _⟩ => show win0_14.index t (1 : Fin 3) * 1 + 1 * u.val = u.val; omega
  | ⟨2, _⟩ => show win0_14.index t (2 : Fin 3) * 512 + 1 * e.val = e.val; omega

theorem flushed12_eq (c : Dev nD) (t : Fin cfg0.N) :
    (dats m 0 c).flushed 12 t = ((cfg0.win 12).blk t).view.read (Elt Ideal)
      (caTokens (m ((c : Thread nD τ).loc main_arg0)) (m ((c : Thread nD τ).loc main_arg1)) (m ((c : Thread nD τ).loc main_arg2)) (m ((c : Thread nD τ).loc main_arg3)) (m ((c : Thread nD τ).loc main_arg4))) := by
  rw [flushed12]
  unfold out0_12
  rw [View.canon_unit_zero zero3]
  simp only [View.ld_unit_zero (S := S128x20x8) zero3, View.ld_unit_zero (S := S8x512) zero2, View.ld_unit_zero (S := S1x512) zero2,
    View.ld_unit_zero (S := S128x20x12) zero3, View.ld_unit_zero (S := S12x512) zero2]
  funext y
  obtain ⟨p, n, e, rfl⟩ : ∃ (p : Fin 128) (n : Fin 40) (e : Fin 512), y = ix3 p n e := ⟨y 0, y 1, y 2, eq_ix3 y⟩
  show k0_pay3 (F := Ideal) (iblk m c 0 t) (iblk m c 4 t) (iblk m c 5 t) (iblk m c 1 t) (iblk m c 6 t) (iblk m c 7 t) (ix3 p n e)
    = caTokens (m ((c : Thread nD τ).loc main_arg0)) (m ((c : Thread nD τ).loc main_arg1)) (m ((c : Thread nD τ).loc main_arg2)) (m ((c : Thread nD τ).loc main_arg3)) (m ((c : Thread nD τ).loc main_arg4)) (((cfg0.win 12).blk t).view.emb (ix3 p n e))
  rw [emb12 t p n e, caTokens_ix3]
  exact ca_point (m ((c : Thread nD τ).loc main_arg0)) t.val (t_lt t) (m ((c : Thread nD τ).loc main_arg1)) (m ((c : Thread nD τ).loc main_arg2)) (m ((c : Thread nD τ).loc main_arg3)) (m ((c : Thread nD τ).loc main_arg4))
    (iblk m c 0 t) (iblk m c 4 t) (iblk m c 5 t) (iblk m c 1 t) (iblk m c 6 t) (iblk m c 7 t)
    (fun p n d => blk0 m c t p n d) (fun d e => blk4 m c t d e) (fun u e => blk5 m c t u e)
    (fun p n d => blk1 m c t p n d) (fun d e => blk6 m c t d e) (fun u e => blk7 m c t u e) p n e

theorem at13 (p : Fin 128) (n : Fin 10) (e : Fin 512) :
    ix13_0 (ix3 p n e) = ix2 (⟨p.val * 10 + n.val, by omega⟩ : Fin 1280) e := by
  funext a; apply Fin.ext
  match a with
  | ⟨0, _⟩ => rfl
  | ⟨1, _⟩ => rfl

theorem flushed13_eq (c : Dev nD) (t : Fin cfg0.N) :
    (dats m 0 c).flushed 13 t = ((cfg0.win 13).blk t).view.read (Elt Ideal)
      (sroTokens (m ((c : Thread nD τ).loc main_arg0)) (m ((c : Thread nD τ).loc main_arg5)) (m ((c : Thread nD τ).loc main_arg6))) := by
  rw [flushed13]
  unfold out0_13
  simp only [View.ld_unit_zero (S := S128x10x16) zero3, View.ld_unit_zero (S := S16x512) zero2, View.ld_unit_zero (S := S1x512) zero2]
  funext y
  obtain ⟨p, n, e, rfl⟩ : ∃ (p : Fin 128) (n : Fin 10) (e : Fin 512), y = ix3 p n e := ⟨y 0, y 1, y 2, eq_ix3 y⟩
  show (View.canon [(⟨r0_8, k0_pay1 (k0_pay4 (F := Ideal) (iblk m c 2 t) (iblk m c 8 t) (iblk m c 9 t))⟩ : View.Piece (Elt Ideal) S128x10x512 .f32)] : Vec Ideal S128x10x512 .f32) (ix3 p n e)
    = sroTokens (m ((c : Thread nD τ).loc main_arg0)) (m ((c : Thread nD τ).loc main_arg5)) (m ((c : Thread nD τ).loc main_arg6)) (((cfg0.win 13).blk t).view.emb (ix3 p n e))
  rw [emb13 t p n e, sroTokens_ix3]
  refine (canon13_eq (F := Ideal) (iblk m c 2 t) (iblk m c 8 t) (iblk m c 9 t) (ix3 p n e)).trans ?_
  show k0_pay4 (F := Ideal) (iblk m c 2 t) (iblk m c 8 t) (iblk m c 9 t) (ix13_0 (ix3 p n e)) = _
  rw [at13 p n e]
  exact sro_point (m ((c : Thread nD τ).loc main_arg0)) t.val (t_lt t) (m ((c : Thread nD τ).loc main_arg5)) (m ((c : Thread nD τ).loc main_arg6))
    (iblk m c 2 t) (iblk m c 8 t) (iblk m c 9 t)
    (fun p n d => blk2 m c t p n d) (fun d e => blk8 m c t d e) (fun u e => blk9 m c t u e) p n e

theorem flushed14_eq (c : Dev nD) (t : Fin cfg0.N) :
    (dats m 0 c).flushed 14 t = ((cfg0.win 14).blk t).view.read (Elt Ideal)
      (nfcTokens (m ((c : Thread nD τ).loc main_arg0)) (m ((c : Thread nD τ).loc main_arg7)) (m ((c : Thread nD τ).loc main_arg8))) := by
  rw [flushed14]
  unfold out0_14
  rw [View.canon_unit_zero zero3]
  simp only [View.ld_unit_zero (S := S128x32) zero2, View.ld_unit_zero (S := S32x512) zero2, View.ld_unit_zero (S := S1x512) zero2]
  funext y
  obtain ⟨p, u, e, rfl⟩ : ∃ (p : Fin 128) (u : Fin 1) (e : Fin 512), y = ix3 p u e := ⟨y 0, y 1, y 2, eq_ix3 y⟩
  show k0_pay2 (F := Ideal) (iblk m c 3 t) (iblk m c 10 t) (iblk m c 11 t) (ix3 p u e)
    = nfcTokens (m ((c : Thread nD τ).loc main_arg0)) (m ((c : Thread nD τ).loc main_arg7)) (m ((c : Thread nD τ).loc main_arg8)) (((cfg0.win 14).blk t).view.emb (ix3 p u e))
  rw [emb14 t p u e, nfcTokens_ix3]
  exact nfc_point (m ((c : Thread nD τ).loc main_arg0)) t.val (t_lt t) (m ((c : Thread nD τ).loc main_arg7)) (m ((c : Thread nD τ).loc main_arg8))
    (iblk m c 3 t) (iblk m c 10 t) (iblk m c 11 t)
    (fun p d => blk3 m c t p d) (fun d e => blk10 m c t d e) (fun u e => blk11 m c t u e) p u e

/-! ## Every row lies in the block of point `row / 128` -/

theorem mem_blk12 (t : Fin cfg0.N) (i : S8192x40x512.Idx) :
    i ∈ ((cfg0.win 12).blk t).view.set ↔ ∀ a : Fin 3, win0_12.index t a * S128x40x512.size a ≤ (i a).val ∧ (i a).val < win0_12.index t a * S128x40x512.size a + S128x40x512.size a := by
  show i ∈ ((View.whole main_v14_0).slice (win0_12.rect t)).set ↔ _
  rw [View.set_slice_whole, Rect.mem_set_unit]
  exact Iff.rfl
theorem mem_blk13 (t : Fin cfg0.N) (i : S8192x10x512.Idx) :
    i ∈ ((cfg0.win 13).blk t).view.set ↔ ∀ a : Fin 3, win0_13.index t a * S128x10x512.size a ≤ (i a).val ∧ (i a).val < win0_13.index t a * S128x10x512.size a + S128x10x512.size a := by
  show i ∈ ((View.whole main_v14_1).slice (win0_13.rect t)).set ↔ _
  rw [View.set_slice_whole, Rect.mem_set_unit]
  exact Iff.rfl
theorem mem_blk14 (t : Fin cfg0.N) (i : S8192x1x512.Idx) :
    i ∈ ((cfg0.win 14).blk t).view.set ↔ ∀ a : Fin 3, win0_14.index t a * S128x1x512.size a ≤ (i a).val ∧ (i a).val < win0_14.index t a * S128x1x512.size a + S128x1x512.size a := by
  show i ∈ ((View.whole main_v14_2).slice (win0_14.rect t)).set ↔ _
  rw [View.set_slice_whole, Rect.mem_set_unit]
  exact Iff.rfl

theorem cover12 (i : S8192x40x512.Idx) : ∃ t : Fin cfg0.N, (cfg0.win 12).flush t = true ∧ i ∈ ((cfg0.win 12).blk t).view.set := by
  have hi0 : (i 0).val < 8192 := (i 0).isLt
  have hi1 : (i 1).val < 40 := (i 1).isLt
  have hi2 : (i 2).val < 512 := (i 2).isLt
  let t : Fin cfg0.N := ⟨(i 0).val / 128, Nat.lt_of_lt_of_eq (by omega : (i 0).val / 128 < 64) N_0.symm⟩
  obtain ⟨-, -, -, -, -, -, -, -, -, -, -, e0, e1, e2, -⟩ := idx_batch t
  have ht : t.val = (i 0).val / 128 := rfl
  refine ⟨t, flush0_12 t, ?_⟩
  rw [mem_blk12]
  intro a
  match a with
  | ⟨0, _⟩ => show win0_12.index t (0 : Fin 3) * 128 ≤ (i 0).val ∧ (i 0).val < win0_12.index t (0 : Fin 3) * 128 + 128; omega
  | ⟨1, _⟩ => show win0_12.index t (1 : Fin 3) * 40 ≤ (i 1).val ∧ (i 1).val < win0_12.index t (1 : Fin 3) * 40 + 40; omega
  | ⟨2, _⟩ => show win0_12.index t (2 : Fin 3) * 512 ≤ (i 2).val ∧ (i 2).val < win0_12.index t (2 : Fin 3) * 512 + 512; omega

theorem cover13 (i : S8192x10x512.Idx) : ∃ t : Fin cfg0.N, (cfg0.win 13).flush t = true ∧ i ∈ ((cfg0.win 13).blk t).view.set := by
  have hi0 : (i 0).val < 8192 := (i 0).isLt
  have hi1 : (i 1).val < 10 := (i 1).isLt
  have hi2 : (i 2).val < 512 := (i 2).isLt
  let t : Fin cfg0.N := ⟨(i 0).val / 128, Nat.lt_of_lt_of_eq (by omega : (i 0).val / 128 < 64) N_0.symm⟩
  obtain ⟨-, -, -, -, -, -, -, -, -, -, -, -, -, -, e0, e1, e2, -⟩ := idx_batch t
  have ht : t.val = (i 0).val / 128 := rfl
  refine ⟨t, flush0_13 t, ?_⟩
  rw [mem_blk13]
  intro a
  match a with
  | ⟨0, _⟩ => show win0_13.index t (0 : Fin 3) * 128 ≤ (i 0).val ∧ (i 0).val < win0_13.index t (0 : Fin 3) * 128 + 128; omega
  | ⟨1, _⟩ => show win0_13.index t (1 : Fin 3) * 10 ≤ (i 1).val ∧ (i 1).val < win0_13.index t (1 : Fin 3) * 10 + 10; omega
  | ⟨2, _⟩ => show win0_13.index t (2 : Fin 3) * 512 ≤ (i 2).val ∧ (i 2).val < win0_13.index t (2 : Fin 3) * 512 + 512; omega

theorem cover14 (i : S8192x1x512.Idx) : ∃ t : Fin cfg0.N, (cfg0.win 14).flush t = true ∧ i ∈ ((cfg0.win 14).blk t).view.set := by
  have hi0 : (i 0).val < 8192 := (i 0).isLt
  have hi1 : (i 1).val < 1 := (i 1).isLt
  have hi2 : (i 2).val < 512 := (i 2).isLt
  let t : Fin cfg0.N := ⟨(i 0).val / 128, Nat.lt_of_lt_of_eq (by omega : (i 0).val / 128 < 64) N_0.symm⟩
  obtain ⟨-, -, -, -, -, -, -, -, -, -, -, -, -, -, -, -, -, e0, e1, e2⟩ := idx_batch t
  have ht : t.val = (i 0).val / 128 := rfl
  refine ⟨t, flush0_14 t, ?_⟩
  rw [mem_blk14]
  intro a
  match a with
  | ⟨0, _⟩ => show win0_14.index t (0 : Fin 3) * 128 ≤ (i 0).val ∧ (i 0).val < win0_14.index t (0 : Fin 3) * 128 + 128; omega
  | ⟨1, _⟩ => show win0_14.index t (1 : Fin 3) * 1 ≤ (i 1).val ∧ (i 1).val < win0_14.index t (1 : Fin 3) * 1 + 1; omega
  | ⟨2, _⟩ => show win0_14.index t (2 : Fin 3) * 512 ≤ (i 2).val ∧ (i 2).val < win0_14.index t (2 : Fin 3) * 512 + 512; omega

/-! ## The results after the run -/

theorem final12 (c : Dev nD) : (dats m 0 c).arrAt 12 cfg0.N = caTokens (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 12 _ (fun t _ => flushed12_eq m c t) cover12
theorem final13 (c : Dev nD) : (dats m 0 c).arrAt 13 cfg0.N = sroTokens (m ((c : Thread nD τ).loc main_arg0)) (m ((c : Thread nD τ).loc main_arg5)) (m ((c : Thread nD τ).loc main_arg6)) :=
  (dats m 0 c).arrAt_eq_of_cover 13 _ (fun t _ => flushed13_eq m c t) cover13
theorem final14 (c : Dev nD) : (dats m 0 c).arrAt 14 cfg0.N = nfcTokens (m ((c : Thread nD τ).loc main_arg0)) (m ((c : Thread nD τ).loc main_arg7)) (m ((c : Thread nD τ).loc main_arg8)) :=
  (dats m 0 c).arrAt_eq_of_cover 14 _ (fun t _ => flushed14_eq m c t) cover14

/-- Every weakly fair execution of the kernel's program terminates with the three results at the specification's
    arrays of the arguments as launched, and the arguments unchanged. -/
theorem run : θ_run defs (onTc (τ := τ) (main (F := Ideal))) ⟨m, fun _ => 0, ρ⟩ fun r => ∀ c : Dev nD,
      r.2.mem ((c : Thread nD τ).loc main_v14_0) = caTokens (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v14_1) = sroTokens (m ((c : Thread nD τ).loc main_arg0)) (m ((c : Thread nD τ).loc main_arg5)) (m ((c : Thread nD τ).loc main_arg6))
      ∧ r.2.mem ((c : Thread nD τ).loc main_v14_2) = nfcTokens (m ((c : Thread nD τ).loc main_arg0)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final12 m c), (h c).2.1.trans (final13 m c), (h c).2.2.1.trans (final14 m c), (h c).2.2.2⟩)
    (run_blocks m ρ)

end Cert.KernelIdeal.Final

end
-- ==== Proof.RefRun.lean ====
/-
  The reference program's @main read back as a run.  Its 58 host operations, in order, are a list; every weakly
  fair execution of the list ends with each buffer at the composition of the operations that wrote it, applied to
  the arguments as launched.  The compositions are named stage by stage: for each token type the start columns
  @main computes from its literal table (a negative entry would have 643 added; none is negative), the gather of
  those columns out of every observation row, the product with the type's weights plus the bias broadcast over
  rows and groups; the first result is the concatenation of the first two types' tokens along the group axis, the
  third the last type's tokens with a unit group axis put in.
-/
import proofs.«410713_j84232898609863_3_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The start columns of the battery features: the 20×8 table, 643 added to an entry below zero. -/
def battStarts : IVec S20x8x1 32 :=
  broadcastInDim S20x8x1 ![0, 1] bcast_S20x8_S20x8x1_0_1
    (select (cmpi .slt (fun i => lit0 (S20x8.rowMajor i)) (broadcastInDim S20x8 ![] bcast_S_S20x8 (constantI S_ 32 0#32)))
      (addi (fun i => lit0 (S20x8.rowMajor i)) (broadcastInDim S20x8 ![] bcast_S_S20x8 (constantI S_ 32 643#32)))
      (fun i => lit0 (S20x8.rowMajor i)))
/-- The start columns of the event features: the 20×12 table. -/
def evStarts : IVec S20x12x1 32 :=
  broadcastInDim S20x12x1 ![0, 1] bcast_S20x12_S20x12x1_0_1
    (select (cmpi .slt (fun i => lit1 (S20x12.rowMajor i)) (broadcastInDim S20x12 ![] bcast_S_S20x12 (constantI S_ 32 0#32)))
      (addi (fun i => lit1 (S20x12.rowMajor i)) (broadcastInDim S20x12 ![] bcast_S_S20x12 (constantI S_ 32 643#32)))
      (fun i => lit1 (S20x12.rowMajor i)))
/-- The start columns of the third type's features: the 10×16 table. -/
def sroStarts : IVec S10x16x1 32 :=
  broadcastInDim S10x16x1 ![0, 1] bcast_S10x16_S10x16x1_0_1
    (select (cmpi .slt (fun i => lit2 (S10x16.rowMajor i)) (broadcastInDim S10x16 ![] bcast_S_S10x16 (constantI S_ 32 0#32)))
      (addi (fun i => lit2 (S10x16.rowMajor i)) (broadcastInDim S10x16 ![] bcast_S_S10x16 (constantI S_ 32 643#32)))
      (fun i => lit2 (S10x16.rowMajor i)))
/-- The start columns of the last group's features: the 32-entry table. -/
def nfcStarts : IVec S32x1 32 :=
  broadcastInDim S32x1 ![0] bcast_S32_S32x1_0
    (select (cmpi .slt (fun i => lit3 (S32.rowMajor i)) (broadcastInDim S32 ![] bcast_S_S32 (constantI S_ 32 0#32)))
      (addi (fun i => lit3 (S32.rowMajor i)) (broadcastInDim S32 ![] bcast_S_S32 (constantI S_ 32 643#32)))
      (fun i => lit3 (S32.rowMajor i)))

/-- The gathered feature arrays. -/
def battGather (obs : (⟨S8192x643, .f32⟩ : BufTy).Contents (Elt F)) : (⟨S8192x20x8, .f32⟩ : BufTy).Contents (Elt F) :=
  Host.gather gather_S8192x643_S20x8x1_S8192x20x8_0_1_n_n_1_2_81921 obs battStarts
def evGather (obs : (⟨S8192x643, .f32⟩ : BufTy).Contents (Elt F)) : (⟨S8192x20x12, .f32⟩ : BufTy).Contents (Elt F) :=
  Host.gather gather_S8192x643_S20x12x1_S8192x20x12_0_1_n_n_1_2_81921 obs evStarts
def sroGather (obs : (⟨S8192x643, .f32⟩ : BufTy).Contents (Elt F)) : (⟨S8192x10x16, .f32⟩ : BufTy).Contents (Elt F) :=
  Host.gather gather_S8192x643_S10x16x1_S8192x10x16_0_1_n_n_1_2_81921 obs sroStarts
def nfcGather (obs : (⟨S8192x643, .f32⟩ : BufTy).Contents (Elt F)) : (⟨S8192x32, .f32⟩ : BufTy).Contents (Elt F) :=
  Host.gather gather_S8192x643_S32x1_S8192x32_0_1_n_n_1_1_81921 obs nfcStarts

/-- A type's tokens: the gathered features against the weights, plus the bias on every row and group. -/
def battTok (obs : (⟨S8192x643, .f32⟩ : BufTy).Contents (Elt F)) (W : (⟨S8x512, .f32⟩ : BufTy).Contents (Elt F))
    (β : (⟨S512, .f32⟩ : BufTy).Contents (Elt F)) : (⟨S8192x20x512, .f32⟩ : BufTy).Contents (Elt F) :=
  addf (Host.dotGeneral dot_S8192x20x8_S8x512_S8192x20x512_2_0_01_1_n_n none (battGather obs) W)
    (broadcastInDim S8192x20x512 ![0, 1, 2] bcast_S1x1x512_S8192x20x512_0_1_2 (broadcastInDim S1x1x512 ![2] bcast_S512_S1x1x512_2 β))
def evTok (obs : (⟨S8192x643, .f32⟩ : BufTy).Contents (Elt F)) (W : (⟨S12x512, .f32⟩ : BufTy).Contents (Elt F))
    (β : (⟨S512, .f32⟩ : BufTy).Contents (Elt F)) : (⟨S8192x20x512, .f32⟩ : BufTy).Contents (Elt F) :=
  addf (Host.dotGeneral dot_S8192x20x12_S12x512_S8192x20x512_2_0_01_1_n_n none (evGather obs) W)
    (broadcastInDim S8192x20x512 ![0, 1, 2] bcast_S1x1x512_S8192x20x512_0_1_2 (broadcastInDim S1x1x512 ![2] bcast_S512_S1x1x512_2 β))
def sroTok (obs : (⟨S8192x643, .f32⟩ : BufTy).Contents (Elt F)) (W : (⟨S16x512, .f32⟩ : BufTy).Contents (Elt F))
    (β : (⟨S512, .f32⟩ : BufTy).Contents (Elt F)) : (⟨S8192x10x512, .f32⟩ : BufTy).Contents (Elt F) :=
  addf (Host.dotGeneral dot_S8192x10x16_S16x512_S8192x10x512_2_0_01_1_n_n none (sroGather obs) W)
    (broadcastInDim S8192x10x512 ![0, 1, 2] bcast_S1x1x512_S8192x10x512_0_1_2 (broadcastInDim S1x1x512 ![2] bcast_S512_S1x1x512_2 β))
def nfcTok (obs : (⟨S8192x643, .f32⟩ : BufTy).Contents (Elt F)) (W : (⟨S32x512, .f32⟩ : BufTy).Contents (Elt F))
    (β : (⟨S512, .f32⟩ : BufTy).Contents (Elt F)) : (⟨S8192x512, .f32⟩ : BufTy).Contents (Elt F) :=
  addf (Host.dotGeneral dot_S8192x32_S32x512_S8192x512_1_0_0_1_n_n none (nfcGather obs) W)
    (broadcastInDim S8192x512 ![0, 1] bcast_S1x512_S8192x512_0_1 (broadcastInDim S1x512 ![1] bcast_S512_S1x512_1 β))

/-- The three results. -/
def caOut (obs : (⟨S8192x643, .f32⟩ : BufTy).Contents (Elt F)) (Wb : (⟨S8x512, .f32⟩ : BufTy).Contents (Elt F))
    (bb : (⟨S512, .f32⟩ : BufTy).Contents (Elt F)) (We : (⟨S12x512, .f32⟩ : BufTy).Contents (Elt F))
    (be : (⟨S512, .f32⟩ : BufTy).Contents (Elt F)) : (⟨S8192x40x512, .f32⟩ : BufTy).Contents (Elt F) :=
  concatenate S8192x40x512 1 [⟨S8192x20x512, battTok obs Wb bb⟩, ⟨S8192x20x512, evTok obs We be⟩]
    concatenates_S8192x20x512_S8192x20x512_S8192x40x512_d1
def sroOut (obs : (⟨S8192x643, .f32⟩ : BufTy).Contents (Elt F)) (Ws : (⟨S16x512, .f32⟩ : BufTy).Contents (Elt F))
    (bs : (⟨S512, .f32⟩ : BufTy).Contents (Elt F)) : (⟨S8192x10x512, .f32⟩ : BufTy).Contents (Elt F) :=
  sroTok obs Ws bs
def nfcOut (obs : (⟨S8192x643, .f32⟩ : BufTy).Contents (Elt F)) (Wn : (⟨S32x512, .f32⟩ : BufTy).Contents (Elt F))
    (bn : (⟨S512, .f32⟩ : BufTy).Contents (Elt F)) : (⟨S8192x1x512, .f32⟩ : BufTy).Contents (Elt F) :=
  broadcastInDim S8192x1x512 ![0, 2] bcast_S8192x512_S8192x1x512_0_2 (nfcTok obs Wn bn)

/-! ## @main as a list of operations, and its run -/

/-- @main's 58 operations, in order. -/
abbrev ops : List (HloOp τ sig (Elt F)) :=
  [ nullary main_c (fun i => lit0 (S20x8.rowMajor i)),
    nullary main_c_0 (fun i => lit1 (S20x12.rowMajor i)),
    nullary main_c_1 (fun i => lit2 (S10x16.rowMajor i)),
    nullary main_c_2 (fun i => lit3 (S32.rowMajor i)),
    nullary main_c_3 (constantI S_ 32 0#32),
    unary main_c_3 main_v0 (broadcastInDim S20x8 ![] bcast_S_S20x8 : (⟨S_, .i32⟩ : BufTy).Contents (Elt F) → (⟨S20x8, .i32⟩ : BufTy).Contents (Elt F)),
    binary main_c main_v0 main_v1 (cmpi .slt : (⟨S20x8, .i32⟩ : BufTy).Contents (Elt F) → (⟨S20x8, .i32⟩ : BufTy).Contents (Elt F) → (⟨S20x8, .i1⟩ : BufTy).Contents (Elt F)),
    nullary main_c_4 (constantI S_ 32 643#32),
    unary main_c_4 main_v2 (broadcastInDim S20x8 ![] bcast_S_S20x8 : (⟨S_, .i32⟩ : BufTy).Contents (Elt F) → (⟨S20x8, .i32⟩ : BufTy).Contents (Elt F)),
    binary main_c main_v2 main_v3 (addi : (⟨S20x8, .i32⟩ : BufTy).Contents (Elt F) → (⟨S20x8, .i32⟩ : BufTy).Contents (Elt F) → (⟨S20x8, .i32⟩ : BufTy).Contents (Elt F)),
    ternary main_v1 main_v3 main_c main_v4 (select : (⟨S20x8, .i1⟩ : BufTy).Contents (Elt F) → (⟨S20x8, .i32⟩ : BufTy).Contents (Elt F) → (⟨S20x8, .i32⟩ : BufTy).Contents (Elt F) → (⟨S20x8, .i32⟩ : BufTy).Contents (Elt F)),
    unary main_v4 main_v5 (broadcastInDim S20x8x1 ![0, 1] bcast_S20x8_S20x8x1_0_1 : (⟨S20x8, .i32⟩ : BufTy).Contents (Elt F) → (⟨S20x8x1, .i32⟩ : BufTy).Contents (Elt F)),
    binary main_arg0 main_v5 main_v6 ((fun x i => Host.gather gather_S8192x643_S20x8x1_S8192x20x8_0_1_n_n_1_2_81921 x i) : (⟨S8192x643, .f32⟩ : BufTy).Contents (Elt F) → (⟨S20x8x1, .i32⟩ : BufTy).Contents (Elt F) → (⟨S8192x20x8, .f32⟩ : BufTy).Contents (Elt F)),
    nullary main_c_5 (constantI S_ 32 0#32),
    unary main_c_5 main_v7 (broadcastInDim S20x12 ![] bcast_S_S20x12 : (⟨S_, .i32⟩ : BufTy).Contents (Elt F) → (⟨S20x12, .i32⟩ : BufTy).Contents (Elt F)),
    binary main_c_0 main_v7 main_v8 (cmpi .slt : (⟨S20x12, .i32⟩ : BufTy).Contents (Elt F) → (⟨S20x12, .i32⟩ : BufTy).Contents (Elt F) → (⟨S20x12, .i1⟩ : BufTy).Contents (Elt F)),
    nullary main_c_6 (constantI S_ 32 643#32),
    unary main_c_6 main_v9 (broadcastInDim S20x12 ![] bcast_S_S20x12 : (⟨S_, .i32⟩ : BufTy).Contents (Elt F) → (⟨S20x12, .i32⟩ : BufTy).Contents (Elt F)),
    binary main_c_0 main_v9 main_v10 (addi : (⟨S20x12, .i32⟩ : BufTy).Contents (Elt F) → (⟨S20x12, .i32⟩ : BufTy).Contents (Elt F) → (⟨S20x12, .i32⟩ : BufTy).Contents (Elt F)),
    ternary main_v8 main_v10 main_c_0 main_v11 (select : (⟨S20x12, .i1⟩ : BufTy).Contents (Elt F) → (⟨S20x12, .i32⟩ : BufTy).Contents (Elt F) → (⟨S20x12, .i32⟩ : BufTy).Contents (Elt F) → (⟨S20x12, .i32⟩ : BufTy).Contents (Elt F)),
    unary main_v11 main_v12 (broadcastInDim S20x12x1 ![0, 1] bcast_S20x12_S20x12x1_0_1 : (⟨S20x12, .i32⟩ : BufTy).Contents (Elt F) → (⟨S20x12x1, .i32⟩ : BufTy).Contents (Elt F)),
    binary main_arg0 main_v12 main_v13 ((fun x i => Host.gather gather_S8192x643_S20x12x1_S8192x20x12_0_1_n_n_1_2_81921 x i) : (⟨S8192x643, .f32⟩ : BufTy).Contents (Elt F) → (⟨S20x12x1, .i32⟩ : BufTy).Contents (Elt F) → (⟨S8192x20x12, .f32⟩ : BufTy).Contents (Elt F)),
    nullary main_c_7 (constantI S_ 32 0#32),
    unary main_c_7 main_v14 (broadcastInDim S10x16 ![] bcast_S_S10x16 : (⟨S_, .i32⟩ : BufTy).Contents (Elt F) → (⟨S10x16, .i32⟩ : BufTy).Contents (Elt F)),
    binary main_c_1 main_v14 main_v15 (cmpi .slt : (⟨S10x16, .i32⟩ : BufTy).Contents (Elt F) → (⟨S10x16, .i32⟩ : BufTy).Contents (Elt F) → (⟨S10x16, .i1⟩ : BufTy).Contents (Elt F)),
    nullary main_c_8 (constantI S_ 32 643#32),
    unary main_c_8 main_v16 (broadcastInDim S10x16 ![] bcast_S_S10x16 : (⟨S_, .i32⟩ : BufTy).Contents (Elt F) → (⟨S10x16, .i32⟩ : BufTy).Contents (Elt F)),
    binary main_c_1 main_v16 main_v17 (addi : (⟨S10x16, .i32⟩ : BufTy).Contents (Elt F) → (⟨S10x16, .i32⟩ : BufTy).Contents (Elt F) → (⟨S10x16, .i32⟩ : BufTy).Contents (Elt F)),
    ternary main_v15 main_v17 main_c_1 main_v18 (select : (⟨S10x16, .i1⟩ : BufTy).Contents (Elt F) → (⟨S10x16, .i32⟩ : BufTy).Contents (Elt F) → (⟨S10x16, .i32⟩ : BufTy).Contents (Elt F) → (⟨S10x16, .i32⟩ : BufTy).Contents (Elt F)),
    unary main_v18 main_v19 (broadcastInDim S10x16x1 ![0, 1] bcast_S10x16_S10x16x1_0_1 : (⟨S10x16, .i32⟩ : BufTy).Contents (Elt F) → (⟨S10x16x1, .i32⟩ : BufTy).Contents (Elt F)),
    binary main_arg0 main_v19 main_v20 ((fun x i => Host.gather gather_S8192x643_S10x16x1_S8192x10x16_0_1_n_n_1_2_81921 x i) : (⟨S8192x643, .f32⟩ : BufTy).Contents (Elt F) → (⟨S10x16x1, .i32⟩ : BufTy).Contents (Elt F) → (⟨S8192x10x16, .f32⟩ : BufTy).Contents (Elt F)),
    nullary main_c_9 (constantI S_ 32 0#32),
    unary main_c_9 main_v21 (broadcastInDim S32 ![] bcast_S_S32 : (⟨S_, .i32⟩ : BufTy).Contents (Elt F) → (⟨S32, .i32⟩ : BufTy).Contents (Elt F)),
    binary main_c_2 main_v21 main_v22 (cmpi .slt : (⟨S32, .i32⟩ : BufTy).Contents (Elt F) → (⟨S32, .i32⟩ : BufTy).Contents (Elt F) → (⟨S32, .i1⟩ : BufTy).Contents (Elt F)),
    nullary main_c_10 (constantI S_ 32 643#32),
    unary main_c_10 main_v23 (broadcastInDim S32 ![] bcast_S_S32 : (⟨S_, .i32⟩ : BufTy).Contents (Elt F) → (⟨S32, .i32⟩ : BufTy).Contents (Elt F)),
    binary main_c_2 main_v23 main_v24 (addi : (⟨S32, .i32⟩ : BufTy).Contents (Elt F) → (⟨S32, .i32⟩ : BufTy).Contents (Elt F) → (⟨S32, .i32⟩ : BufTy).Contents (Elt F)),
    ternary main_v22 main_v24 main_c_2 main_v25 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    unary main_v25 main_v26 (broadcastInDim S32x1 ![0] bcast_S32_S32x1_0 : (⟨S32, .i32⟩ : BufTy).Contents (Elt F) → (⟨S32x1, .i32⟩ : BufTy).Contents (Elt F)),
    binary main_arg0 main_v26 main_v27 ((fun x i => Host.gather gather_S8192x643_S32x1_S8192x32_0_1_n_n_1_1_81921 x i) : (⟨S8192x643, .f32⟩ : BufTy).Contents (Elt F) → (⟨S32x1, .i32⟩ : BufTy).Contents (Elt F) → (⟨S8192x32, .f32⟩ : BufTy).Contents (Elt F)),
    binary main_v6 main_arg1 main_v28 ((fun l r => Host.dotGeneral dot_S8192x20x8_S8x512_S8192x20x512_2_0_01_1_n_n none l r) : (⟨S8192x20x8, .f32⟩ : BufTy).Contents (Elt F) → (⟨S8x512, .f32⟩ : BufTy).Contents (Elt F) → (⟨S8192x20x512, .f32⟩ : BufTy).Contents (Elt F)),
    unary main_arg2 main_v29 (broadcastInDim S1x1x512 ![2] bcast_S512_S1x1x512_2 : (⟨S512, .f32⟩ : BufTy).Contents (Elt F) → (⟨S1x1x512, .f32⟩ : BufTy).Contents (Elt F)),
    unary main_v29 main_v30 (broadcastInDim S8192x20x512 ![0, 1, 2] bcast_S1x1x512_S8192x20x512_0_1_2 : (⟨S1x1x512, .f32⟩ : BufTy).Contents (Elt F) → (⟨S8192x20x512, .f32⟩ : BufTy).Contents (Elt F)),
    binary main_v28 main_v30 main_v31 (addf : (⟨S8192x20x512, .f32⟩ : BufTy).Contents (Elt F) → (⟨S8192x20x512, .f32⟩ : BufTy).Contents (Elt F) → (⟨S8192x20x512, .f32⟩ : BufTy).Contents (Elt F)),
    binary main_v13 main_arg3 main_v32 ((fun l r => Host.dotGeneral dot_S8192x20x12_S12x512_S8192x20x512_2_0_01_1_n_n none l r) : (⟨S8192x20x12, .f32⟩ : BufTy).Contents (Elt F) → (⟨S12x512, .f32⟩ : BufTy).Contents (Elt F) → (⟨S8192x20x512, .f32⟩ : BufTy).Contents (Elt F)),
    unary main_arg4 main_v33 (broadcastInDim S1x1x512 ![2] bcast_S512_S1x1x512_2 : (⟨S512, .f32⟩ : BufTy).Contents (Elt F) → (⟨S1x1x512, .f32⟩ : BufTy).Contents (Elt F)),
    unary main_v33 main_v34 (broadcastInDim S8192x20x512 ![0, 1, 2] bcast_S1x1x512_S8192x20x512_0_1_2 : (⟨S1x1x512, .f32⟩ : BufTy).Contents (Elt F) → (⟨S8192x20x512, .f32⟩ : BufTy).Contents (Elt F)),
    binary main_v32 main_v34 main_v35 (addf : (⟨S8192x20x512, .f32⟩ : BufTy).Contents (Elt F) → (⟨S8192x20x512, .f32⟩ : BufTy).Contents (Elt F) → (⟨S8192x20x512, .f32⟩ : BufTy).Contents (Elt F)),
    binary main_v20 main_arg5 main_v36 ((fun l r => Host.dotGeneral dot_S8192x10x16_S16x512_S8192x10x512_2_0_01_1_n_n none l r) : (⟨S8192x10x16, .f32⟩ : BufTy).Contents (Elt F) → (⟨S16x512, .f32⟩ : BufTy).Contents (Elt F) → (⟨S8192x10x512, .f32⟩ : BufTy).Contents (Elt F)),
    unary main_arg6 main_v37 (broadcastInDim S1x1x512 ![2] bcast_S512_S1x1x512_2 : (⟨S512, .f32⟩ : BufTy).Contents (Elt F) → (⟨S1x1x512, .f32⟩ : BufTy).Contents (Elt F)),
    unary main_v37 main_v38 (broadcastInDim S8192x10x512 ![0, 1, 2] bcast_S1x1x512_S8192x10x512_0_1_2 : (⟨S1x1x512, .f32⟩ : BufTy).Contents (Elt F) → (⟨S8192x10x512, .f32⟩ : BufTy).Contents (Elt F)),
    binary main_v36 main_v38 main_v39 (addf : (⟨S8192x10x512, .f32⟩ : BufTy).Contents (Elt F) → (⟨S8192x10x512, .f32⟩ : BufTy).Contents (Elt F) → (⟨S8192x10x512, .f32⟩ : BufTy).Contents (Elt F)),
    binary main_v27 main_arg7 main_v40 ((fun l r => Host.dotGeneral dot_S8192x32_S32x512_S8192x512_1_0_0_1_n_n none l r) : (⟨S8192x32, .f32⟩ : BufTy).Contents (Elt F) → (⟨S32x512, .f32⟩ : BufTy).Contents (Elt F) → (⟨S8192x512, .f32⟩ : BufTy).Contents (Elt F)),
    unary main_arg8 main_v41 (broadcastInDim S1x512 ![1] bcast_S512_S1x512_1 : (⟨S512, .f32⟩ : BufTy).Contents (Elt F) → (⟨S1x512, .f32⟩ : BufTy).Contents (Elt F)),
    unary main_v41 main_v42 (broadcastInDim S8192x512 ![0, 1] bcast_S1x512_S8192x512_0_1 : (⟨S1x512, .f32⟩ : BufTy).Contents (Elt F) → (⟨S8192x512, .f32⟩ : BufTy).Contents (Elt F)),
    binary main_v40 main_v42 main_v43 (addf : (⟨S8192x512, .f32⟩ : BufTy).Contents (Elt F) → (⟨S8192x512, .f32⟩ : BufTy).Contents (Elt F) → (⟨S8192x512, .f32⟩ : BufTy).Contents (Elt F)),
    unary main_v43 main_v44 (broadcastInDim S8192x1x512 ![0, 2] bcast_S8192x512_S8192x1x512_0_2 : (⟨S8192x512, .f32⟩ : BufTy).Contents (Elt F) → (⟨S8192x1x512, .f32⟩ : BufTy).Contents (Elt F)),
    binary main_v31 main_v35 main_v45 ((fun a b => concatenate S8192x40x512 1 [⟨S8192x20x512, a⟩, ⟨S8192x20x512, b⟩] concatenates_S8192x20x512_S8192x20x512_S8192x40x512_d1) : (⟨S8192x20x512, .f32⟩ : BufTy).Contents (Elt F) → (⟨S8192x20x512, .f32⟩ : BufTy).Contents (Elt F) → (⟨S8192x40x512, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., binary_bufs_sub ..⟩

set_option maxHeartbeats 4000000 in
/-- Every weakly fair execution of @main terminates with the three results at the stages above of the arguments as
    launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45) = caOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v39) = sroOut (m ((c.tc : Thread nD τ).loc main_arg0)) (m ((c.tc : Thread nD τ).loc main_arg5)) (m ((c.tc : Thread nD τ).loc main_arg6))
      ∧ r.2.mem ((c.tc : Thread nD τ).loc main_v44) = nfcOut (m ((c.tc : Thread nD τ).loc main_arg0)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v45).trans (by after_results_simp <;> rfl),
      (h c main_v39).trans (by after_results_simp <;> rfl),
      (h c main_v44).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.HostRun

end
-- ==== Proof.RefStarts.lean ====
/-
  The start columns @main computes from its literal tables, as numbers: entry `(n, d)` of the battery table is
  `9 n + 1 + d`, of the event table `180 + 13 n + 1 + d`, of the third table `440 + 17 n + 1 + d`, and entry
  `d` of the last `611 + d`; none is negative, so the `643` that a negative entry would have added is never added.
-/
import proofs.«410713_j84232898609863_3_alg».proof.Proof.RefRun
import Idealize.ShloMosaic.Lib.ValueIdx
import Idealize.ShloMosaic.Lib.Pipeline.Value

namespace Cert.ReferenceIdeal.HostRun

open Cert.ReferenceIdeal Cert.ReferenceIdeal.Gen Idealize.ShloMosaic Idealize.ShloMosaic.ValueIdx

/-- What @main does to one table entry: `643` is added when the entry, read signed, is below zero. -/
private def wrapNeg (x : BitVec 32) : BitVec 32 :=
  Scalar.select (IntOp.cmpi .slt x 0#32) (IntOp.addi x 643#32) x

/-! ## The four tables, entry by entry

Position `k` of a row-major table with rows `c` long is entry `(k / c, k % c)`; each of the finitely many entries is
computed: it is not negative, is left as it is, and is the column the segment's layout gives. -/

private theorem lit0_wrapNeg : ∀ k : Fin 160, (wrapNeg (lit0 k)).toInt.toNat = 9 * (k.val / 8) + 1 + k.val % 8 := by
  decide +kernel
private theorem lit1_wrapNeg : ∀ k : Fin 240, (wrapNeg (lit1 k)).toInt.toNat = 180 + 13 * (k.val / 12) + 1 + k.val % 12 := by
  decide +kernel
private theorem lit2_wrapNeg : ∀ k : Fin 160, (wrapNeg (lit2 k)).toInt.toNat = 440 + 17 * (k.val / 16) + 1 + k.val % 16 := by
  decide +kernel
private theorem lit3_wrapNeg : ∀ k : Fin 32, (wrapNeg (lit3 k)).toInt.toNat = 611 + k.val := by
  decide +kernel

/-! ## The start arrays at an index

The trailing unit axis is a broadcast along the two (or the one) table axes, so entry `(n, d, 0)` reads the selected
table at `(n, d)`, which sits at row-major position `n * c + d`. -/

private theorem battStarts_word (n : Fin 20) (d : Fin 8) :
    battStarts (ix3 n d (0 : Fin 1)) = wrapNeg (lit0 (S20x8.rowMajor (ix2 n d))) := by
  unfold battStarts
  refine (broadcastInDim_apply _ _ _ _ (ix2 n d) ?_).trans rfl
  intro a; fin_cases a <;> rfl
private theorem evStarts_word (n : Fin 20) (d : Fin 12) :
    evStarts (ix3 n d (0 : Fin 1)) = wrapNeg (lit1 (S20x12.rowMajor (ix2 n d))) := by
  unfold evStarts
  refine (broadcastInDim_apply _ _ _ _ (ix2 n d) ?_).trans rfl
  intro a; fin_cases a <;> rfl
private theorem sroStarts_word (n : Fin 10) (d : Fin 16) :
    sroStarts (ix3 n d (0 : Fin 1)) = wrapNeg (lit2 (S10x16.rowMajor (ix2 n d))) := by
  unfold sroStarts
  refine (broadcastInDim_apply _ _ _ _ (ix2 n d) ?_).trans rfl
  intro a; fin_cases a <;> rfl
private theorem nfcStarts_word (d : Fin 32) :
    nfcStarts (ix2 d (0 : Fin 1)) = wrapNeg (lit3 (S32.rowMajor (ix1 d))) := by
  unfold nfcStarts
  refine (broadcastInDim_apply _ _ _ _ (ix1 d) ?_).trans rfl
  intro a; fin_cases a; rfl

theorem battStarts_apply (n : Fin 20) (d : Fin 8) :
    (battStarts (ix3 n d (0 : Fin 1))).toInt.toNat = 9 * n.val + 1 + d.val := by
  have hpos : (S20x8.rowMajor (ix2 n d)).val = n.val * 8 + d.val := Shape.rowMajor_val_two (ix2 n d)
  refine ((congrArg (fun x : BitVec 32 => x.toInt.toNat) (battStarts_word n d)).trans (lit0_wrapNeg _)).trans ?_
  rw [hpos]
  have := n.isLt; have := d.isLt
  omega
theorem evStarts_apply (n : Fin 20) (d : Fin 12) :
    (evStarts (ix3 n d (0 : Fin 1))).toInt.toNat = 180 + 13 * n.val + 1 + d.val := by
  have hpos : (S20x12.rowMajor (ix2 n d)).val = n.val * 12 + d.val := Shape.rowMajor_val_two (ix2 n d)
  refine ((congrArg (fun x : BitVec 32 => x.toInt.toNat) (evStarts_word n d)).trans (lit1_wrapNeg _)).trans ?_
  rw [hpos]
  have := n.isLt; have := d.isLt
  omega
theorem sroStarts_apply (n : Fin 10) (d : Fin 16) :
    (sroStarts (ix3 n d (0 : Fin 1))).toInt.toNat = 440 + 17 * n.val + 1 + d.val := by
  have hpos : (S10x16.rowMajor (ix2 n d)).val = n.val * 16 + d.val := Shape.rowMajor_val_two (ix2 n d)
  refine ((congrArg (fun x : BitVec 32 => x.toInt.toNat) (sroStarts_word n d)).trans (lit2_wrapNeg _)).trans ?_
  rw [hpos]
  have := n.isLt; have := d.isLt
  omega
theorem nfcStarts_apply (d : Fin 32) :
    (nfcStarts (ix2 d (0 : Fin 1))).toInt.toNat = 611 + d.val := by
  have hpos : (S32.rowMajor (ix1 d)).val = d.val := Shape.rowMajor_val_one (ix1 d)
  refine ((congrArg (fun x : BitVec 32 => x.toInt.toNat) (nfcStarts_word d)).trans (lit3_wrapNeg _)).trans ?_
  rw [hpos]

end Cert.ReferenceIdeal.HostRun
-- ==== Proof.LibGatherColumns.lean ====
/-
  A gather that takes whole columns out of a matrix, read at an index.

  The operand is a `B × K` matrix; the start indices are a table of column numbers with a trailing unit axis
  (`R × C × 1`, or `C × 1`); each slice is one whole column (`B × 1`, the column axis collapsed), so the result
  is `B × R × C` (or `B × C`): entry `(b, r, c)` is the operand's entry at row `b` and at the column the table
  names at `(r, c)`, read as a signed number and clamped into `[0, K − 1]`.
-/
import Idealize.ShloMosaic.PureOps.ShapeOps
import Idealize.ShloMosaic.Lib.ValueIdx

namespace Cert.Lib.GatherColumns

open Idealize.ShloMosaic Idealize.ShloMosaic.ValueIdx

variable {α : Type}

/-- The dimension numbers of a whole-column gather with a rank-3 table of column numbers. -/
abbrev colsDims3 (B K R C : Nat)
    (wf : GatherDims.WF ⟨2, ![B, K]⟩ ⟨3, ![R, C, 1]⟩ ⟨3, ![B, R, C]⟩ [0] [1] [] [1] [] 2 ![B, 1]) :
    GatherDims ⟨2, ![B, K]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- The dimension numbers of a whole-column gather with a rank-2 table of column numbers. -/
abbrev colsDims2 (B K C : Nat)
    (wf : GatherDims.WF ⟨2, ![B, K]⟩ ⟨2, ![C, 1]⟩ ⟨2, ![B, C]⟩ [0] [1] [] [1] [] 1 ![B, 1]) :
    GatherDims ⟨2, ![B, K]⟩ ⟨2, ![C, 1]⟩ ⟨2, ![B, C]⟩ where
  offsetDims := [0]
  collapsedSliceDims := [1]
  operandBatchingDims := []
  startIndicesBatchingDims := []
  startIndexMap := [1]
  indexVectorDim := 1
  sliceSizes := ![B, 1]
  wf := wf

/-- Entry `(b, r, c)` of the gather is the operand at row `b`, column `table (r, c, 0)` clamped. -/
theorem gather_cols3_apply {B K R C w : Nat} (hK : 0 < K)
    (wf : GatherDims.WF ⟨2, ![B, K]⟩ ⟨3, ![R, C, 1]⟩ ⟨3, ![B, R, C]⟩ [0] [1] [] [1] [] 2 ![B, 1])
    (x : (⟨2, ![B, K]⟩ : Shape).Idx → α) (idx : IVec ⟨3, ![R, C, 1]⟩ w) (b : Fin B) (r : Fin R) (c : Fin C) :
    Host.gather (colsDims3 B K R C wf) x idx (ix3 b r c)
      = x (ix2 b ⟨min (idx (ix3 r c (0 : Fin 1))).toInt.toNat (K - 1), by omega⟩) := by
  unfold Host.gather
  congr 1
  funext a
  refine Fin.ext ?_
  show (colsDims3 B K R C wf).start (ix3 b r c) idx a + (colsDims3 B K R C wf).batchCoord (ix3 b r c) a
    + (colsDims3 B K R C wf).offCoord (ix3 b r c) a = _
  rw [GatherDims.batchCoord_eq_zero _ _ _ List.not_mem_nil]
  match a with
  | ⟨0, _⟩ =>
    -- the row axis: not in the start index map, kept as the one offset axis
    have hk : (⟨0, by decide⟩ : Fin 2) ∈ (colsDims3 B K R C wf).sKept :=
      ((colsDims3 B K R C wf).mem_sKept _).mpr ⟨fun h => Nat.zero_ne_one (congrArg Fin.val (List.mem_singleton.mp h)), List.not_mem_nil⟩
    unfold GatherDims.start GatherDims.offCoord
    rw [dif_neg (fun h => Nat.zero_ne_one (congrArg Fin.val (List.mem_singleton.mp h))), dif_pos hk]
    simp only [Nat.zero_add]
    rfl
  | ⟨1, _⟩ =>
    -- the column axis: in the start index map, collapsed
    have hm : (⟨1, by decide⟩ : Fin 2) ∈ (colsDims3 B K R C wf).startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hm]
    have hsi : (colsDims3 B K R C wf).siIdx (ix3 b r c)
        ⟨List.idxOf (⟨1, by decide⟩ : Fin 2) (colsDims3 B K R C wf).startIndexMap,
          List.idxOf_lt_length_iff.2 hm⟩ = ix3 r c (0 : Fin 1) := by
      funext d; refine Fin.ext ?_
      match d with
      | ⟨0, _⟩ => rfl
      | ⟨1, _⟩ => rfl
      | ⟨2, _⟩ => rfl
    rw [hsi]
    rfl

/-- Entry `(b, c)` of the gather is the operand at row `b`, column `table (c, 0)` clamped. -/
theorem gather_cols2_apply {B K C w : Nat} (hK : 0 < K)
    (wf : GatherDims.WF ⟨2, ![B, K]⟩ ⟨2, ![C, 1]⟩ ⟨2, ![B, C]⟩ [0] [1] [] [1] [] 1 ![B, 1])
    (x : (⟨2, ![B, K]⟩ : Shape).Idx → α) (idx : IVec ⟨2, ![C, 1]⟩ w) (b : Fin B) (c : Fin C) :
    Host.gather (colsDims2 B K C wf) x idx (ix2 b c)
      = x (ix2 b ⟨min (idx (ix2 c (0 : Fin 1))).toInt.toNat (K - 1), by omega⟩) := by
  unfold Host.gather
  congr 1
  funext a
  refine Fin.ext ?_
  show (colsDims2 B K C wf).start (ix2 b c) idx a + (colsDims2 B K C wf).batchCoord (ix2 b c) a
    + (colsDims2 B K C wf).offCoord (ix2 b c) a = _
  rw [GatherDims.batchCoord_eq_zero _ _ _ List.not_mem_nil]
  match a with
  | ⟨0, _⟩ =>
    -- the row axis: not in the start index map, kept as the one offset axis
    have hk : (⟨0, by decide⟩ : Fin 2) ∈ (colsDims2 B K C wf).sKept :=
      ((colsDims2 B K C wf).mem_sKept _).mpr ⟨fun h => Nat.zero_ne_one (congrArg Fin.val (List.mem_singleton.mp h)), List.not_mem_nil⟩
    unfold GatherDims.start GatherDims.offCoord
    rw [dif_neg (fun h => Nat.zero_ne_one (congrArg Fin.val (List.mem_singleton.mp h))), dif_pos hk]
    simp only [Nat.zero_add]
    rfl
  | ⟨1, _⟩ =>
    -- the column axis: in the start index map, collapsed
    have hm : (⟨1, by decide⟩ : Fin 2) ∈ (colsDims2 B K C wf).startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hm]
    have hsi : (colsDims2 B K C wf).siIdx (ix2 b c)
        ⟨List.idxOf (⟨1, by decide⟩ : Fin 2) (colsDims2 B K C wf).startIndexMap,
          List.idxOf_lt_length_iff.2 hm⟩ = ix2 c (0 : Fin 1) := by
      funext d; refine Fin.ext ?_
      match d with
      | ⟨0, _⟩ => rfl
      | ⟨1, _⟩ => rfl
    rw [hsi]
    rfl

end Cert.Lib.GatherColumns
-- ==== Proof.RefFeat.lean ====
/-
  What the reference gathers is the feature arrays: the gather reads every observation row at the columns the start
  tables name, and those are the feature columns `o + g n + 1 + d` of the four segments.
-/
import proofs.«410713_j84232898609863_3_alg».proof.Proof.RefStarts
import proofs.«410713_j84232898609863_3_alg».proof.Proof.LibGatherColumns
import proofs.«410713_j84232898609863_3_alg».proof.Proof.Spec

noncomputable section

namespace Cert.ReferenceIdeal.HostRun

open Cert.ReferenceIdeal Cert.ReferenceIdeal.Gen Idealize.ShloMosaic Idealize.ShloMosaic.ValueIdx Cert.Tokens
open Cert.Lib.GatherColumns

/-!
Each of the four gathers takes whole columns of the 8192 × 643 observation matrix: entry `(b, n, d)` is row `b` at the
column the start table names at `(n, d)`, clamped into `[0, 642]`.  The table's entry is the feature column, which is
at most 642, so the clamp does nothing and the entry is the feature `(b, n, d)`.
-/

theorem battGather_eq (obs : FVec Ideal S8192x643 .f32) : battGather (F := Ideal) obs = battFeat obs := by
  funext j
  obtain ⟨b, n, d, rfl⟩ : ∃ (b : Fin 8192) (n : Fin 20) (d : Fin 8), j = ix3 b n d := ⟨j 0, j 1, j 2, eq_ix3 j⟩
  rw [battFeat_ix3]
  show Host.gather (colsDims3 8192 643 20 8 _) obs battStarts (ix3 b n d) = _
  refine (gather_cols3_apply (by omega) _ obs battStarts b n d).trans ?_
  unfold battAt
  refine congrArg obs (congrArg (ix2 b) (Fin.ext ?_))
  show min (battStarts (ix3 n d (0 : Fin 1))).toInt.toNat (643 - 1) = 9 * n.val + 1 + d.val
  rw [battStarts_apply]
  have := n.isLt; have := d.isLt
  omega
theorem evGather_eq (obs : FVec Ideal S8192x643 .f32) : evGather (F := Ideal) obs = evFeat obs := by
  funext j
  obtain ⟨b, n, d, rfl⟩ : ∃ (b : Fin 8192) (n : Fin 20) (d : Fin 12), j = ix3 b n d := ⟨j 0, j 1, j 2, eq_ix3 j⟩
  rw [evFeat_ix3]
  show Host.gather (colsDims3 8192 643 20 12 _) obs evStarts (ix3 b n d) = _
  refine (gather_cols3_apply (by omega) _ obs evStarts b n d).trans ?_
  unfold evAt
  refine congrArg obs (congrArg (ix2 b) (Fin.ext ?_))
  show min (evStarts (ix3 n d (0 : Fin 1))).toInt.toNat (643 - 1) = 180 + 13 * n.val + 1 + d.val
  rw [evStarts_apply]
  have := n.isLt; have := d.isLt
  omega
theorem sroGather_eq (obs : FVec Ideal S8192x643 .f32) : sroGather (F := Ideal) obs = sroFeat obs := by
  funext j
  obtain ⟨b, n, d, rfl⟩ : ∃ (b : Fin 8192) (n : Fin 10) (d : Fin 16), j = ix3 b n d := ⟨j 0, j 1, j 2, eq_ix3 j⟩
  rw [sroFeat_ix3]
  show Host.gather (colsDims3 8192 643 10 16 _) obs sroStarts (ix3 b n d) = _
  refine (gather_cols3_apply (by omega) _ obs sroStarts b n d).trans ?_
  unfold sroAt
  refine congrArg obs (congrArg (ix2 b) (Fin.ext ?_))
  show min (sroStarts (ix3 n d (0 : Fin 1))).toInt.toNat (643 - 1) = 440 + 17 * n.val + 1 + d.val
  rw [sroStarts_apply]
  have := n.isLt; have := d.isLt
  omega
theorem nfcGather_eq (obs : FVec Ideal S8192x643 .f32) : nfcGather (F := Ideal) obs = nfcFeat obs := by
  funext j
  obtain ⟨b, d, rfl⟩ : ∃ (b : Fin 8192) (d : Fin 32), j = ix2 b d := ⟨j 0, j 1, eq_ix2 j⟩
  rw [nfcFeat_ix2]
  show Host.gather (colsDims2 8192 643 32 _) obs nfcStarts (ix2 b d) = _
  refine (gather_cols2_apply (by omega) _ obs nfcStarts b d).trans ?_
  unfold nfcAt
  refine congrArg obs (congrArg (ix2 b) (Fin.ext ?_))
  show min (nfcStarts (ix2 d (0 : Fin 1))).toInt.toNat (643 - 1) = 611 + d.val
  rw [nfcStarts_apply]
  have := d.isLt
  omega

end Cert.ReferenceIdeal.HostRun

end
-- ==== Proof.RefTokens.lean ====
/-
  The reference's token stage read at an index, for any feature array: the host's contraction of the features' last
  axis with the weights' first is the sum over the feature index of feature times weight, and the bias, broadcast
  first to `1 × 1 × 512` and then over rows and groups, contributes its entry at the model coordinate.
-/
import proofs.«410713_j84232898609863_3_alg».proof.Proof.RefRun
import proofs.«410713_j84232898609863_3_alg».proof.Proof.Spec
import Idealize.ShloMosaic.PureOps.Ideal.Laws
import Idealize.ShloMosaic.Lib.Pipeline.Value

noncomputable section

namespace Cert.ReferenceIdeal.HostRun

open Cert.ReferenceIdeal Cert.ReferenceIdeal.Gen Idealize.ShloMosaic Idealize.ShloMosaic.ValueIdx Cert.Tokens

open scoped BigOperators

/-! ## The contraction at an index -/

/-- Rows `[B, N, D]` against a matrix `[D, E]`, the rows' last axis contracted with the matrix's first: at an index
    the product is the sum over the contracted coordinate of entry times entry.  The left index takes `b` and `n`
    from the result's first two coordinates and the contracted coordinate on its last axis; the right index takes the
    contracted coordinate on its first axis and `e` from the result's last. -/
private theorem dotRows_apply {B N D E : Nat}
    (w : DotDims.WF ⟨3, ![B, N, D]⟩ ⟨2, ![D, E]⟩ ⟨3, ![B, N, E]⟩ [2] [0] [0, 1] [1] [] [])
    (X : FVec Ideal ⟨3, ![B, N, D]⟩ .f32) (W : FVec Ideal ⟨2, ![D, E]⟩ .f32) (b : Fin B) (n : Fin N) (e : Fin E) :
    Host.dotGeneral (F := Ideal) (⟨[2], [0], [0, 1], [1], [], [], w⟩ : DotDims ⟨3, ![B, N, D]⟩ ⟨2, ![D, E]⟩ ⟨3, ![B, N, E]⟩)
        none X W (ix3 b n e)
      = ∑ d : Fin D, X (ix3 b n d) * W (ix2 d e) := by
  show FloatOps.dotGeneral _ none _ X W (ix3 b n e) = _
  rw [Ideal.dotGeneral_apply,
    ← Equiv.sum_comp (contrEquiv1 (⟨[2], [0], [0, 1], [1], [], [], w⟩ : DotDims ⟨3, ![B, N, D]⟩ ⟨2, ![D, E]⟩ ⟨3, ![B, N, E]⟩) D rfl rfl).symm]
  refine Finset.sum_congr rfl fun c _ => ?_
  have hk := contrEquiv1_symm_val
    (⟨[2], [0], [0, 1], [1], [], [], w⟩ : DotDims ⟨3, ![B, N, D]⟩ ⟨2, ![D, E]⟩ ⟨3, ![B, N, E]⟩) D rfl rfl c
  have el : (⟨[2], [0], [0, 1], [1], [], [], w⟩ : DotDims ⟨3, ![B, N, D]⟩ ⟨2, ![D, E]⟩ ⟨3, ![B, N, E]⟩).lhsIdx (ix3 b n e)
      ((contrEquiv1 _ D rfl rfl).symm c) = ix3 b n c := by
    funext a; apply Fin.ext
    match a with
    | ⟨0, _⟩ =>
      unfold DotDims.lhsIdx
      rw [dif_neg (by simp), dif_pos (by simp)]
      rfl
    | ⟨1, _⟩ =>
      unfold DotDims.lhsIdx
      rw [dif_neg (by simp), dif_pos (by simp)]
      rfl
    | ⟨2, _⟩ => exact (DotDims.lhsIdx_val_of_single _ rfl _ _).trans hk
  have er : (⟨[2], [0], [0, 1], [1], [], [], w⟩ : DotDims ⟨3, ![B, N, D]⟩ ⟨2, ![D, E]⟩ ⟨3, ![B, N, E]⟩).rhsIdx (ix3 b n e)
      ((contrEquiv1 _ D rfl rfl).symm c) = ix2 c e := by
    funext a; apply Fin.ext
    match a with
    | ⟨0, _⟩ => exact (DotDims.rhsIdx_val_of_single _ rfl _ _).trans hk
    | ⟨1, _⟩ =>
      unfold DotDims.rhsIdx
      rw [dif_neg (by simp), dif_pos (by simp)]
      rfl
  rw [el, er]

/-- A matrix `[B, D]` against a matrix `[D, E]`: at an index the product is the sum over the contracted coordinate. -/
private theorem dotRow_apply {B D E : Nat}
    (w : DotDims.WF ⟨2, ![B, D]⟩ ⟨2, ![D, E]⟩ ⟨2, ![B, E]⟩ [1] [0] [0] [1] [] [])
    (X : FVec Ideal ⟨2, ![B, D]⟩ .f32) (W : FVec Ideal ⟨2, ![D, E]⟩ .f32) (b : Fin B) (e : Fin E) :
    Host.dotGeneral (F := Ideal) (⟨[1], [0], [0], [1], [], [], w⟩ : DotDims ⟨2, ![B, D]⟩ ⟨2, ![D, E]⟩ ⟨2, ![B, E]⟩)
        none X W (ix2 b e)
      = ∑ d : Fin D, X (ix2 b d) * W (ix2 d e) := by
  show FloatOps.dotGeneral _ none _ X W (ix2 b e) = _
  rw [Ideal.dotGeneral_apply,
    ← Equiv.sum_comp (contrEquiv1 (⟨[1], [0], [0], [1], [], [], w⟩ : DotDims ⟨2, ![B, D]⟩ ⟨2, ![D, E]⟩ ⟨2, ![B, E]⟩) D rfl rfl).symm]
  refine Finset.sum_congr rfl fun c _ => ?_
  have hk := contrEquiv1_symm_val
    (⟨[1], [0], [0], [1], [], [], w⟩ : DotDims ⟨2, ![B, D]⟩ ⟨2, ![D, E]⟩ ⟨2, ![B, E]⟩) D rfl rfl c
  have el : (⟨[1], [0], [0], [1], [], [], w⟩ : DotDims ⟨2, ![B, D]⟩ ⟨2, ![D, E]⟩ ⟨2, ![B, E]⟩).lhsIdx (ix2 b e)
      ((contrEquiv1 _ D rfl rfl).symm c) = ix2 b c := by
    funext a; apply Fin.ext
    match a with
    | ⟨0, _⟩ =>
      unfold DotDims.lhsIdx
      rw [dif_neg (by simp), dif_pos (by simp)]
      rfl
    | ⟨1, _⟩ => exact (DotDims.lhsIdx_val_of_single _ rfl _ _).trans hk
  have er : (⟨[1], [0], [0], [1], [], [], w⟩ : DotDims ⟨2, ![B, D]⟩ ⟨2, ![D, E]⟩ ⟨2, ![B, E]⟩).rhsIdx (ix2 b e)
      ((contrEquiv1 _ D rfl rfl).symm c) = ix2 c e := by
    funext a; apply Fin.ext
    match a with
    | ⟨0, _⟩ => exact (DotDims.rhsIdx_val_of_single _ rfl _ _).trans hk
    | ⟨1, _⟩ =>
      unfold DotDims.rhsIdx
      rw [dif_neg (by simp), dif_pos (by simp)]
      rfl
  rw [el, er]

/-! ## The bias at an index -/

/-- A bias vector broadcast to `1 × 1 × 512` and then over `B` rows and `N` groups reads, at `(b, n, e)`, its
    entry `e`: the two unit axes read coordinate 0, the last axis carries `e` through both broadcasts. -/
private theorem biasRows_apply {B N : Nat}
    (h₁ : (⟨1, ![512]⟩ : Shape).BroadcastsInDim ⟨3, ![1, 1, 512]⟩ (![2] : Fin 1 → Fin 3))
    (h₂ : (⟨3, ![1, 1, 512]⟩ : Shape).BroadcastsInDim ⟨3, ![B, N, 512]⟩ (![0, 1, 2] : Fin 3 → Fin 3))
    (β : FVec Ideal ⟨1, ![512]⟩ .f32) (b : Fin B) (n : Fin N) (e : Fin 512) :
    broadcastInDim ⟨3, ![B, N, 512]⟩ ![0, 1, 2] h₂ (broadcastInDim ⟨3, ![1, 1, 512]⟩ ![2] h₁ β) (ix3 b n e) = β (ix1 e) := by
  refine (broadcastInDim_apply _ h₂ _ (ix3 b n e) (ix3 (0 : Fin 1) (0 : Fin 1) e) ?_).trans
    (broadcastInDim_apply _ h₁ β _ (ix1 e) ?_)
  · intro a
    match a with
    | ⟨0, _⟩ => rfl
    | ⟨1, _⟩ => rfl
    | ⟨2, _⟩ => rfl
  · intro a
    match a with
    | ⟨0, _⟩ => rfl

/-- A bias vector broadcast to `1 × 512` and then over `B` rows reads, at `(b, e)`, its entry `e`. -/
private theorem biasRow_apply {B : Nat}
    (h₁ : (⟨1, ![512]⟩ : Shape).BroadcastsInDim ⟨2, ![1, 512]⟩ (![1] : Fin 1 → Fin 2))
    (h₂ : (⟨2, ![1, 512]⟩ : Shape).BroadcastsInDim ⟨2, ![B, 512]⟩ (![0, 1] : Fin 2 → Fin 2))
    (β : FVec Ideal ⟨1, ![512]⟩ .f32) (b : Fin B) (e : Fin 512) :
    broadcastInDim ⟨2, ![B, 512]⟩ ![0, 1] h₂ (broadcastInDim ⟨2, ![1, 512]⟩ ![1] h₁ β) (ix2 b e) = β (ix1 e) := by
  refine (broadcastInDim_apply _ h₂ _ (ix2 b e) (ix2 (0 : Fin 1) e) ?_).trans
    (broadcastInDim_apply _ h₁ β _ (ix1 e) ?_)
  · intro a
    match a with
    | ⟨0, _⟩ => rfl
    | ⟨1, _⟩ => rfl
  · intro a
    match a with
    | ⟨0, _⟩ => rfl

/-! ## The four token stages -/

theorem battStage_apply (X : FVec Ideal S8192x20x8 .f32) (W : FVec Ideal S8x512 .f32) (β : FVec Ideal S512 .f32)
    (b : Fin 8192) (n : Fin 20) (e : Fin 512) :
    addf (Host.dotGeneral (F := Ideal) dot_S8192x20x8_S8x512_S8192x20x512_2_0_01_1_n_n none X W)
      (broadcastInDim S8192x20x512 ![0, 1, 2] bcast_S1x1x512_S8192x20x512_0_1_2 (broadcastInDim S1x1x512 ![2] bcast_S512_S1x1x512_2 β))
      (ix3 b n e) = tok3 X W β b n e := by
  rw [addf_apply]
  exact congrArg₂ (· + ·)
    (dotRows_apply dot_S8192x20x8_S8x512_S8192x20x512_2_0_01_1_n_n.wf X W b n e)
    (biasRows_apply bcast_S512_S1x1x512_2 bcast_S1x1x512_S8192x20x512_0_1_2 β b n e)
theorem evStage_apply (X : FVec Ideal S8192x20x12 .f32) (W : FVec Ideal S12x512 .f32) (β : FVec Ideal S512 .f32)
    (b : Fin 8192) (n : Fin 20) (e : Fin 512) :
    addf (Host.dotGeneral (F := Ideal) dot_S8192x20x12_S12x512_S8192x20x512_2_0_01_1_n_n none X W)
      (broadcastInDim S8192x20x512 ![0, 1, 2] bcast_S1x1x512_S8192x20x512_0_1_2 (broadcastInDim S1x1x512 ![2] bcast_S512_S1x1x512_2 β))
      (ix3 b n e) = tok3 X W β b n e := by
  rw [addf_apply]
  exact congrArg₂ (· + ·)
    (dotRows_apply dot_S8192x20x12_S12x512_S8192x20x512_2_0_01_1_n_n.wf X W b n e)
    (biasRows_apply bcast_S512_S1x1x512_2 bcast_S1x1x512_S8192x20x512_0_1_2 β b n e)
theorem sroStage_apply (X : FVec Ideal S8192x10x16 .f32) (W : FVec Ideal S16x512 .f32) (β : FVec Ideal S512 .f32)
    (b : Fin 8192) (n : Fin 10) (e : Fin 512) :
    addf (Host.dotGeneral (F := Ideal) dot_S8192x10x16_S16x512_S8192x10x512_2_0_01_1_n_n none X W)
      (broadcastInDim S8192x10x512 ![0, 1, 2] bcast_S1x1x512_S8192x10x512_0_1_2 (broadcastInDim S1x1x512 ![2] bcast_S512_S1x1x512_2 β))
      (ix3 b n e) = tok3 X W β b n e := by
  rw [addf_apply]
  exact congrArg₂ (· + ·)
    (dotRows_apply dot_S8192x10x16_S16x512_S8192x10x512_2_0_01_1_n_n.wf X W b n e)
    (biasRows_apply bcast_S512_S1x1x512_2 bcast_S1x1x512_S8192x10x512_0_1_2 β b n e)
theorem nfcStage_apply (X : FVec Ideal S8192x32 .f32) (W : FVec Ideal S32x512 .f32) (β : FVec Ideal S512 .f32)
    (b : Fin 8192) (e : Fin 512) :
    addf (Host.dotGeneral (F := Ideal) dot_S8192x32_S32x512_S8192x512_1_0_0_1_n_n none X W)
      (broadcastInDim S8192x512 ![0, 1] bcast_S1x512_S8192x512_0_1 (broadcastInDim S1x512 ![1] bcast_S512_S1x512_1 β))
      (ix2 b e) = tok2 X W β b e := by
  rw [addf_apply]
  exact congrArg₂ (· + ·)
    (dotRow_apply dot_S8192x32_S32x512_S8192x512_1_0_0_1_n_n.wf X W b e)
    (biasRow_apply bcast_S512_S1x512_1 bcast_S1x512_S8192x512_0_1 β b e)

end Cert.ReferenceIdeal.HostRun

end
-- ==== Proof.RefValue.lean ====
/-
  The reference's three results are the specification's: the gathered features are the feature arrays, each token
  stage is the feature row against the weight column plus the bias, the concatenation along the group axis puts the
  battery tokens on rows 0–19 and the event tokens on rows 20–39, and the last result's unit axis carries the one
  token of the last group.
-/
import proofs.«410713_j84232898609863_3_alg».proof.Proof.RefFeat
import proofs.«410713_j84232898609863_3_alg».proof.Proof.RefTokens

noncomputable section

namespace Cert.ReferenceIdeal.HostRun

open Cert.ReferenceIdeal Cert.ReferenceIdeal.Gen Idealize.ShloMosaic Idealize.ShloMosaic.ValueIdx Cert.Tokens

theorem caOut_eq (obs : FVec Ideal S8192x643 .f32) (Wb : FVec Ideal S8x512 .f32) (bb : FVec Ideal S512 .f32)
    (We : FVec Ideal S12x512 .f32) (be : FVec Ideal S512 .f32) :
    caOut (F := Ideal) obs Wb bb We be = caTokens obs Wb bb We be := by
  funext j
  obtain ⟨b, n, e, rfl⟩ : ∃ (b : Fin 8192) (n : Fin 40) (e : Fin 512), j = ix3 b n e := ⟨j 0, j 1, j 2, eq_ix3 j⟩
  rw [caTokens_ix3]
  unfold caOut caAt
  by_cases h : n.val < 20
  · -- rows 0–19: the first piece, at the same coordinates
    rw [dif_pos h]
    refine (concatenate_pair_apply_left (t := S8192x40x512) (s₁ := S8192x20x512) (s₂ := S8192x20x512) (1 : Fin 3) _ _ _ (ix3 b n e) rfl (ix3 b (⟨n.val, h⟩ : Fin 20) e) ?_).trans ?_
    · intro a
      match a with
      | ⟨0, _⟩ => rfl
      | ⟨1, _⟩ => rfl
      | ⟨2, _⟩ => rfl
    · unfold battTok
      rw [battGather_eq]
      exact battStage_apply (battFeat obs) Wb bb b ⟨n.val, h⟩ e
  · -- rows 20–39: the second piece, its group coordinate twenty less
    rw [dif_neg h]
    refine (concatenate_pair_apply_right (t := S8192x40x512) (s₁ := S8192x20x512) (s₂ := S8192x20x512) (1 : Fin 3) _ _ _ (ix3 b n e) rfl rfl
      (ix3 b (⟨n.val - 20, by omega⟩ : Fin 20) e) ?_ ?_).trans ?_
    · intro a ha
      match a with
      | ⟨0, _⟩ => rfl
      | ⟨1, _⟩ => exact absurd rfl ha
      | ⟨2, _⟩ => rfl
    · show n.val - 20 + 20 = n.val
      omega
    · unfold evTok
      rw [evGather_eq]
      exact evStage_apply (evFeat obs) We be b ⟨n.val - 20, by omega⟩ e
theorem sroOut_eq (obs : FVec Ideal S8192x643 .f32) (Ws : FVec Ideal S16x512 .f32) (bs : FVec Ideal S512 .f32) :
    sroOut (F := Ideal) obs Ws bs = sroTokens obs Ws bs := by
  funext j
  obtain ⟨b, n, e, rfl⟩ : ∃ (b : Fin 8192) (n : Fin 10) (e : Fin 512), j = ix3 b n e := ⟨j 0, j 1, j 2, eq_ix3 j⟩
  rw [sroTokens_ix3]
  unfold sroOut sroTok
  rw [sroGather_eq]
  exact sroStage_apply (sroFeat obs) Ws bs b n e
theorem nfcOut_eq (obs : FVec Ideal S8192x643 .f32) (Wn : FVec Ideal S32x512 .f32) (bn : FVec Ideal S512 .f32) :
    nfcOut (F := Ideal) obs Wn bn = nfcTokens obs Wn bn := by
  funext j
  obtain ⟨b, u, e, rfl⟩ : ∃ (b : Fin 8192) (u : Fin 1) (e : Fin 512), j = ix3 b u e := ⟨j 0, j 1, j 2, eq_ix3 j⟩
  rw [nfcTokens_ix3]
  unfold nfcOut
  -- the unit middle axis is put in by a broadcast that reads the rank-2 tokens at `(b, e)`
  refine (broadcastInDim_apply _ _ _ (ix3 b u e) (ix2 b e) ?_).trans ?_
  · intro a
    match a with
    | ⟨0, _⟩ => rfl
    | ⟨1, _⟩ => rfl
  · unfold nfcTok
    rw [nfcGather_eq]
    exact nfcStage_apply (nfcFeat obs) Wn bn b e

end Cert.ReferenceIdeal.HostRun

end
-- ==== Proof.lean ====
/-
  An observation tokenizer.  Each of the 8192 observation rows holds four segments of marker-then-features groups;
  the kernel cuts the features out by slice, reshape and slice, the reference by a gather with literal column
  tables: the same columns `o + g n + 1 + d`.  Each type's features are then multiplied by its weight matrix and
  its bias added — in the kernel block by block over 64 grid points, each block's rows flattened for one matrix
  product into a zero accumulator; in the reference by one contraction over the whole array — and the first two
  types' tokens are laid one after the other along the group axis.  On the extended reals both programs compute,
  entry by entry, the same sum of products plus bias, with the same factors in the same order, so the results are
  equal with no use of finiteness: the precondition is never opened.

  The three frames: the kernel's two programs by their launch-and-body frame proofs; the reference's by its run
  with the results dropped.  The idealization rewrote nothing, so `preserves` is `True`.  For `algebraic` both
  runs are stated with their results at the specification's arrays of the arguments (Spec.lean).
-/
import proofs.«410713_j84232898609863_3_alg».proof.Defs
import proofs.«410713_j84232898609863_3_alg».proof.Proof.Gen.Kernel.Frame
import proofs.«410713_j84232898609863_3_alg».proof.Proof.Gen.Pre_finite_inputs
import proofs.«410713_j84232898609863_3_alg».proof.Proof.KernelFinal
import proofs.«410713_j84232898609863_3_alg».proof.Proof.RefValue
import Idealize.ShloMosaic.Adequacy
import Idealize.ShloMosaic.Init

noncomputable section

namespace Cert.Proof

open Idealize.ShloMosaic Idealize.ShloMosaic.TcCoe Idealize.SL.Sem Cert.Tokens

theorem frame_kernel : Cert.frame_Kernel := fun m ρ _ => Cert.Kernel.Gen.frame m ρ

theorem frame_kernelIdeal : Cert.frame_KernelIdeal := fun m ρ _ => Cert.KernelIdeal.Gen.frame m ρ

/-- The reference's run, its three results forgotten. -/
theorem frame_referenceIdeal : Cert.frame_ReferenceIdeal := fun m ρ _ =>
  (θ_run Cert.ReferenceIdeal.defs _ _).mono (fun _ h c => (h c).2.2.2) (Cert.ReferenceIdeal.HostRun.run (F := Ideal) m ρ)

theorem preserves : Cert.preserves_Kernel_KernelIdeal := trivial

/-- Both programs end with the three results at the specification's arrays of the (agreeing) arguments. -/
theorem algebraic : Cert.algebraic_KernelIdeal_ReferenceIdeal := by
  intro m ρ m' ρ' _ hagree
  refine ⟨fun c => caTokens (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => sroTokens (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => nfcTokens (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Final.run m ρ, ?_⟩
  refine (θ_run Cert.ReferenceIdeal.defs _ _).mono (fun _ h c => ?_) (Cert.ReferenceIdeal.HostRun.run (F := Ideal) m' ρ')
  obtain ⟨h45, h39, h44, hargs⟩ := h c
  obtain ⟨a0, a1, a2, a3, a4, a5, a6, a7, a8⟩ := hagree c
  refine ⟨?_, ?_, ?_, hargs⟩
  · refine h45.trans ((Cert.ReferenceIdeal.HostRun.caOut_eq _ _ _ _ _).trans ?_)
    rw [a0, a1, a2, a3, a4]
  · refine h39.trans ((Cert.ReferenceIdeal.HostRun.sroOut_eq _ _ _).trans ?_)
    rw [a0, a5, a6]
  · refine h44.trans ((Cert.ReferenceIdeal.HostRun.nfcOut_eq _ _ _).trans ?_)
    rw [a0, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
